-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S32768x1024 : Shape := ⟨2, ![32768, 1024]⟩
abbrev S1024x1024 : Shape := ⟨2, ![1024, 1024]⟩
abbrev S1024x2048 : Shape := ⟨2, ![1024, 2048]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S32768x1024 : S_.BroadcastsInDim S32768x1024 (![] : Fin 0 → Fin S32768x1024.rank)
  reducesTo_S32768x1024_S_d0_1 : S32768x1024.ReducesTo [0, 1] S_

variable [Facts]

def fn_part1 {F : FTy → Type} [FloatOps F] (main_arg2 : IVec S32768x1024 32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_c_6 : IVec S_ 32 := constantI S_ 32 0#32
  let main_v19 : IVec S32768x1024 32 := broadcastInDim S32768x1024 ![] bcast_S_S32768x1024 main_c_6
  let main_v20 : IVec S32768x1024 1 := cmpi .eq main_arg2 main_v19
  let main_c_7 : IVec S_ 32 := constantI S_ 32 1#32
  let main_v21 : IVec S32768x1024 32 := broadcastInDim S32768x1024 ![] bcast_S_S32768x1024 main_c_7
  let main_v22 : IVec S32768x1024 1 := cmpi .eq main_arg2 main_v21
  let main_v23 : IVec S32768x1024 1 := ori main_v20 main_v22
  let main_c_8 : IVec S_ 1 := constantI S_ 1 1#1
  let main_v24 : IVec S_ 1 := (fun x v => Host.reduce IntOp.andi x v reducesTo_S32768x1024_S_d0_1 h_S_) main_v23 main_c_8
  let main_v25 : IVec S_ 1 := andi main_v18 main_v24
  main_v25

def fn {F : FTy → Type} [FloatOps F] (main_arg0 : FVec F S32x1024x1024 .f32) (main_arg1 : FVec F S32x1024x1024 .f32) (main_arg2 : IVec S32768x1024 32) (main_arg3 : FVec F S1024x1024 .f32) (main_arg4 : FVec F S1024x2048 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x2048 .f32 := Host.absf main_arg4
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg2 main_v13 main_v16
-- ==== Kernel.lean ====
abbrev S32x1024x1024 : Shape := ⟨3, ![32, 1024, 1024]⟩
abbrev S32768x1024 : Shape := ⟨2, ![32768, 1024]⟩
abbrev S1024x1024 : Shape := ⟨2, ![1024, 1024]⟩
abbrev S1024x2048 : Shape := ⟨2, ![1024, 2048]⟩
abbrev S1x1024x1024 : Shape := ⟨3, ![1, 1024, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 15
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S32768x1024, .i32⟩
  | .hbm, ⟨3, _⟩ => ⟨S1024x1024, .f32⟩
  | .hbm, ⟨4, _⟩ => ⟨S1024x2048, .f32⟩
  | .hbm, ⟨5, _⟩ => ⟨S32x1024x1024, .bf16⟩
  | .hbm, ⟨6, _⟩ => ⟨S32x1024x1024, .i32⟩
  | .hbm, ⟨7, _⟩ => ⟨S1024x1024, .f32⟩
  | .hbm, ⟨8, _⟩ => ⟨S1024x1024, .f32⟩
  | .hbm, ⟨9, _⟩ => ⟨S32x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x1024x1024, .f32⟩
  | .local _ .vmem, ⟨8, _⟩ => ⟨S1x1024x1024, .f32⟩
  | .local _ .vmem, ⟨9, _⟩ => ⟨S1x256x1024, .i32⟩
  | .local _ .vmem, ⟨10, _⟩ => ⟨S1x256x1024, .i32⟩
  | .local _ .vmem, ⟨11, _⟩ => ⟨S1024x1024, .f32⟩
  | .local _ .vmem, ⟨12, _⟩ => ⟨S1024x1024, .f32⟩
  | .local _ .vmem, ⟨13, _⟩ => ⟨S1x256x1024, .f32⟩
  | .local _ .vmem, ⟨14, _⟩ => ⟨S1x256x1024, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1024x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  shapeCasts_S32768x1024_S32x1024x1024 : S32768x1024.ShapeCasts S32x1024x1024
  slices_S1024x2048_S1024x1024_0_0 : S1024x2048.Slices ![0, 0] S1024x1024
  slices_S1024x2048_S1024x1024_0_1024 : S1024x2048.Slices ![0, 1024] S1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  broadcasts_S256x1_S256x1024 : S256x1.Broadcasts S256x1024
  shapeCasts_S1024x1024_S1024x1024 : S1024x1024.ShapeCasts S1024x1024
  shapeCasts_S256x1024_S1x256x1024 : S256x1024.ShapeCasts S1x256x1024
  dot_S1024x1024_S1024x1024_S1024x1024_1_1_0_0_n_n_wf : DotDims.WF S1024x1024 S1024x1024 S1024x1024 [1] [1] [0] [0] [] []
  dot_S256x1024_S1024x1024_S256x1024_1_1_0_0_n_n_wf : DotDims.WF S256x1024 S1024x1024 S256x1024 [1] [1] [0] [0] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S32x1024x1024.size a
  hwx0_2 : ∀ i : grid0.Coords, EltTy.bits .bf16 = 32 ∨ (Rect.block (s := S32x1024x1024) S1x1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S32x1024x1024.size a
  hwx1_0 : ∀ i : grid1.Coords, EltTy.bits .bf16 = 32 ∨ (Rect.block (s := S32x1024x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S32x1024x1024.size a
  hwx1_1 : ∀ i : grid1.Coords, EltTy.bits .f32 = 32 ∨ (Rect.block (s := S32x1024x1024) S1x1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1024.size a ≤ S32x1024x1024.size a
  hwx1_2 : ∀ i : grid1.Coords, EltTy.bits .i32 = 32 ∨ (Rect.block (s := S32x1024x1024) S1x256x1024.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .f32 = 32 ∨ (Rect.block (s := S1024x1024) S1024x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .f32 = 32 ∨ (Rect.block (s := S1024x1024) S1024x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x1024.size a ≤ S32x1024x1024.size a
  hwx1_5 : ∀ i : grid1.Coords, EltTy.bits .f32 = 32 ∨ (Rect.block (s := S32x1024x1024) S1x256x1024.size (cc1_transform_5 i) (hinb1_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x256x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x256x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S32x1024x1024 : Shape := ⟨3, ![32, 1024, 1024]⟩
abbrev S32768x1024 : Shape := ⟨2, ![32768, 1024]⟩
abbrev S1024x1024 : Shape := ⟨2, ![1024, 1024]⟩
abbrev S1024x2048 : Shape := ⟨2, ![1024, 2048]⟩
abbrev S_ : Shape := ⟨0, ![]⟩
abbrev S32x1024 : Shape := ⟨2, ![32, 1024]⟩
abbrev S32x1024x1 : Shape := ⟨3, ![32, 1024, 1]⟩
abbrev S32x1024x2048 : Shape := ⟨3, ![32, 1024, 2048]⟩

abbrev nBuf : Space → Nat
  | .hbm => 37
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .hbm, ⟨2, _⟩ => ⟨S32768x1024, .i32⟩
  | .hbm, ⟨3, _⟩ => ⟨S1024x1024, .f32⟩
  | .hbm, ⟨4, _⟩ => ⟨S1024x2048, .f32⟩
  | .hbm, ⟨5, _⟩ => ⟨S32x1024x1024, .f32⟩
  | .hbm, ⟨6, _⟩ => ⟨S32x1024x1024, .f32⟩
  | .hbm, ⟨7, _⟩ => ⟨S32768x1024, .f32⟩
  | .hbm, ⟨8, _⟩ => ⟨S32x1024x1024, .f32⟩
  | .hbm, ⟨9, _⟩ => ⟨S32x1024x1024, .f32⟩
  | .hbm, ⟨10, _⟩ => ⟨S_, .f32⟩
  | .hbm, ⟨11, _⟩ => ⟨S32x1024, .f32⟩
  | .hbm, ⟨12, _⟩ => ⟨S_, .f32⟩
  | .hbm, ⟨13, _⟩ => ⟨S32x1024, .f32⟩
  | .hbm, ⟨14, _⟩ => ⟨S32x1024, .f32⟩
  | .hbm, ⟨15, _⟩ => ⟨S32x1024x1, .f32⟩
  | .hbm, ⟨16, _⟩ => ⟨S32x1024x1024, .f32⟩
  | .hbm, ⟨17, _⟩ => ⟨S32x1024x1024, .f32⟩
  | .hbm, ⟨18, _⟩ => ⟨S32x1024x1024, .f32⟩
  | .hbm, ⟨19, _⟩ => ⟨S_, .f32⟩
  | .hbm, ⟨20, _⟩ => ⟨S32x1024, .f32⟩
  | .hbm, ⟨21, _⟩ => ⟨S32x1024x1, .f32⟩
  | .hbm, ⟨22, _⟩ => ⟨S32x1024x1024, .f32⟩
  | .hbm, ⟨23, _⟩ => ⟨S32x1024x1024, .f32⟩
  | .hbm, ⟨24, _⟩ => ⟨S32x1024x1024, .f32⟩
  | .hbm, ⟨25, _⟩ => ⟨S_, .f32⟩
  | .hbm, ⟨26, _⟩ => ⟨S32x1024, .f32⟩
  | .hbm, ⟨27, _⟩ => ⟨S32x1024x1, .f32⟩
  | .hbm, ⟨28, _⟩ => ⟨S_, .f32⟩
  | .hbm, ⟨29, _⟩ => ⟨S32x1024x1, .f32⟩
  | .hbm, ⟨30, _⟩ => ⟨S32x1024x1, .f32⟩
  | .hbm, ⟨31, _⟩ => ⟨S32x1024x1024, .f32⟩
  | .hbm, ⟨32, _⟩ => ⟨S32x1024x1024, .f32⟩
  | .hbm, ⟨33, _⟩ => ⟨S32x1024x1024, .f32⟩
  | .hbm, ⟨34, _⟩ => ⟨S32x1024x2048, .f32⟩
  | .hbm, ⟨35, _⟩ => ⟨S32x1024x1024, .f32⟩
  | .hbm, ⟨36, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  shapeCasts_S32768x1024_S32x1024x1024 : S32768x1024.ShapeCasts S32x1024x1024
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  bcast_S_S32x1024x1 : S_.BroadcastsInDim S32x1024x1 (![] : Fin 0 → Fin S32x1024x1.rank)
  concatenates_S32x1024x1024_S32x1024x1024_S32x1024x2048_d2 : Shape.Concatenates [S32x1024x1024, S32x1024x1024] S32x1024x2048 2
  dot_S32x1024x1024_S1024x1024_S32x1024x1024_2_1_01_0_n_n_wf : DotDims.WF S32x1024x1024 S1024x1024 S32x1024x1024 [2] [1] [0, 1] [0] [] []
  dot_S32x1024x1024_S32x1024x1024_S32x1024x1024_2_2_1_1_0_0_wf : DotDims.WF S32x1024x1024 S32x1024x1024 S32x1024x1024 [2] [2] [1] [1] [0] [0]
  dot_S32x1024x1024_S32x1024x1024_S32x1024x1024_2_1_1_2_0_0_wf : DotDims.WF S32x1024x1024 S32x1024x1024 S32x1024x1024 [2] [1] [1] [2] [0] [0]
  dot_S32x1024x2048_S1024x2048_S32x1024x1024_2_1_01_0_n_n_wf : DotDims.WF S32x1024x2048 S1024x2048 S32x1024x1024 [2] [1] [0, 1] [0] [] []

variable [Facts₀]

def dot_S32x1024x1024_S1024x1024_S32x1024x1024_2_1_01_0_n_n : DotDims S32x1024x1024 S1024x1024 S32x1024x1024 where
  lhsContracting := [2]
  rhsContracting := [1]
  lhsNonContracting := [0, 1]
  rhsNonContracting := [0]
  lhsBatch := []
  rhsBatch := []
  wf := dot_S32x1024x1024_S1024x1024_S32x1024x1024_2_1_01_0_n_n_wf
def dot_S32x1024x1024_S32x1024x1024_S32x1024x1024_2_2_1_1_0_0 : DotDims S32x1024x1024 S32x1024x1024 S32x1024x1024 where
  lhsContracting := [2]
  rhsContracting := [2]
  lhsNonContracting := [1]
  rhsNonContracting := [1]
  lhsBatch := [0]
  rhsBatch := [0]
  wf := dot_S32x1024x1024_S32x1024x1024_S32x1024x1024_2_2_1_1_0_0_wf
def dot_S32x1024x1024_S32x1024x1024_S32x1024x1024_2_1_1_2_0_0 : DotDims S32x1024x1024 S32x1024x1024 S32x1024x1024 where
  lhsContracting := [2]
  rhsContracting := [1]
  lhsNonContracting := [1]
  rhsNonContracting := [2]
  lhsBatch := [0]
  rhsBatch := [0]
  wf := dot_S32x1024x1024_S32x1024x1024_S32x1024x1024_2_1_1_2_0_0_wf
def dot_S32x1024x2048_S1024x2048_S32x1024x1024_2_1_01_0_n_n : DotDims S32x1024x2048 S1024x2048 S32x1024x1024 where
  lhsContracting := [2]
  rhsContracting := [1]
  lhsNonContracting := [0, 1]
  rhsNonContracting := [0]
  lhsBatch := []
  rhsBatch := []
  wf := dot_S32x1024x2048_S1024x2048_S32x1024x1024_2_1_01_0_n_n_wf

class Facts : Prop extends Facts₀ where

variable [Facts]
-- ==== Proof.AttnSpec.lean ====
/-
  One row of multiplicative-mask attention, written in the two arrangements the two programs use.

  For one query row let `q` be the projected query (length 1024), `ctx k` the k-th context row, `mk k` the k-th
  mask entry read as a number. Both programs form the masked scores `s k = ⟨q, ctx k⟩ · mk k`, their maximum `μ`,
  the weights `p k = exp (s k − μ)` and their sum `L`.

  * The first arrangement masks the unnormalised weights, `a k = p k · mk k`, and divides ONCE:
        mix d = (∑ k, a k · ctx k d) / (∑ k, a k + ε · L).
  * The second normalises first, `w k = (p k / L) · mk k`, renormalises each weight by `∑ w + ε`, and only then
    takes the weighted sum:   mix d = ∑ k, (w k / (∑ w + ε)) · ctx k d.

  Over the reals the two agree whenever `L ≠ 0` and the denominator `∑ a + ε L` is not zero: multiply numerator
  and denominator of the second by `L`. The output row is `tanh` of the mixed row and the query row against the
  two halves of the output weights; the second arrangement concatenates the two rows and contracts once over 2048.
-/
import Idealize.ShloMosaic.PureOps.Ideal
import Idealize.ShloMosaic.Lib.ValueIdx

noncomputable section

namespace Cert.Attn

open Idealize.ShloMosaic Idealize.ShloMosaic.ValueIdx

/-- The small constant both programs add to the renormalising denominator: the f32 nearest to 1e-13. -/
abbrev epsW : EReal := Ideal.ofBits .f32 0x29E12E13#32

section Row

variable (q : Fin 1024 → EReal) (ctx : Fin 1024 → Fin 1024 → EReal) (mk : Fin 1024 → EReal) (ε : EReal)

/-- The score of key `k`: the inner product of the query row with context row `k`. -/
def score (k : Fin 1024) : EReal := ∑ d : Fin 1024, q d * ctx k d

/-- The masked score: the score times the mask entry. -/
def mscore (k : Fin 1024) : EReal := score q ctx k * mk k

/-- The largest masked score of the row (the fold of `max` from `-∞`). -/
def rowMax : EReal := (Finset.univ : Finset (Fin 1024)).fold max ⊥ (mscore q ctx mk)

/-- The unnormalised softmax weight of key `k`. -/
def pexp (k : Fin 1024) : EReal := Ideal.exp (mscore q ctx mk k - rowMax q ctx mk)

/-- The softmax denominator: the sum of the unnormalised weights, masked keys included. -/
def psum : EReal := ∑ k : Fin 1024, pexp q ctx mk k

/-! ### First arrangement: mask, sum, divide once -/

/-- The masked unnormalised weight. -/
def kw (k : Fin 1024) : EReal := pexp q ctx mk k * mk k

/-- Its denominator: the masked weights' sum plus `ε` times the softmax denominator. -/
def kden : EReal := (∑ k : Fin 1024, kw q ctx mk k) + ε * psum q ctx mk

/-- The attended context at feature `d`. -/
def kmix (d : Fin 1024) : EReal := Ideal.div (∑ k : Fin 1024, kw q ctx mk k * ctx k d) (kden q ctx mk ε)

/-- The output entry against a row `wa` of the first half of the output weights and `wb` of the second. -/
def kout (wa wb : Fin 1024 → EReal) : EReal :=
  Ideal.tanh ((∑ c : Fin 1024, kmix q ctx mk ε c * wa c) + ∑ c : Fin 1024, q c * wb c)

/-! ### Second arrangement: normalise, mask, renormalise each weight, then sum -/

/-- The masked softmax weight. -/
def rw1 (k : Fin 1024) : EReal := Ideal.div (pexp q ctx mk k) (psum q ctx mk) * mk k

/-- The renormalising denominator. -/
def rden : EReal := (∑ k : Fin 1024, rw1 q ctx mk k) + ε

/-- The attended context at feature `d`. -/
def rmix (d : Fin 1024) : EReal := ∑ k : Fin 1024, Ideal.div (rw1 q ctx mk k) (rden q ctx mk ε) * ctx k d

/-- The attended row followed by the query row: 2048 entries. -/
def rcat (c : Fin 2048) : EReal :=
  if h : c.val < 1024 then rmix q ctx mk ε ⟨c.val, h⟩ else q ⟨c.val - 1024, by omega⟩

/-- The output entry against a whole row `wo` of the output weights. -/
def rout (wo : Fin 2048 → EReal) : EReal := Ideal.tanh (∑ c : Fin 2048, rcat q ctx mk ε c * wo c)

end Row

/-! ## The whole arrays -/

/-- Row `b · 1024 + l` of the flat mask is the mask row of query `l` of batch `b`. -/
def mrow (b : Fin 32) (l : Fin 1024) : Fin 32768 := ⟨b.val * 1024 + l.val, by omega⟩

section Arrays

variable (X C : (⟨3, ![32, 1024, 1024]⟩ : Shape).Idx → EReal) (M : (⟨2, ![32768, 1024]⟩ : Shape).Idx → BitVec 32)
  (Wi : (⟨2, ![1024, 1024]⟩ : Shape).Idx → EReal) (Wo : (⟨2, ![1024, 2048]⟩ : Shape).Idx → EReal)

/-- The projected query row: `query[b, l, :] · W_inᵀ`. -/
def qrow (b : Fin 32) (l : Fin 1024) : Fin 1024 → EReal := fun e => ∑ d : Fin 1024, X (ix3 b l d) * Wi (ix2 e d)

/-- The context rows of batch `b`. -/
def crow (b : Fin 32) : Fin 1024 → Fin 1024 → EReal := fun k d => C (ix3 b k d)

/-- The mask row of query `l` of batch `b`, each word read as a signed integer. -/
def mkrow (b : Fin 32) (l : Fin 1024) : Fin 1024 → EReal := fun k => (((M (ix2 (mrow b l) k)).toInt : ℝ) : EReal)

/-- The result in the first arrangement. -/
def GK : (⟨3, ![32, 1024, 1024]⟩ : Shape).Idx → EReal := fun i =>
  kout (qrow X Wi (i 0) (i 1)) (crow C (i 0)) (mkrow M (i 0) (i 1)) epsW
    (fun c => Wo (ix2 (i 2) (⟨c.val, by omega⟩ : Fin 2048))) (fun c => Wo (ix2 (i 2) (⟨1024 + c.val, by omega⟩ : Fin 2048)))

/-- The result in the second arrangement. -/
def GR : (⟨3, ![32, 1024, 1024]⟩ : Shape).Idx → EReal := fun i =>
  rout (qrow X Wi (i 0) (i 1)) (crow C (i 0)) (mkrow M (i 0) (i 1)) epsW (fun c => Wo (ix2 (i 2) c))

end Arrays

end Cert.Attn

end
-- ==== Proof.Region0Value.lean ====
/-
  The projection kernel's result array: every entry is the projected query row's entry.
-/
import proofs.«104273_j9234179687166_1_alg».proof.Proof.Gen.KernelIdeal.Frame
import proofs.«104273_j9234179687166_1_alg».proof.Proof.AttnSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.ProjRegion

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! ## The product at an index -/

/-- The left operand's row coordinate is the output's row. -/
theorem lhs_proj_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- The left operand's column coordinate is the summation index. -/
theorem lhs_proj_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- The right operand's row coordinate is the output's column. -/
theorem rhs_proj_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- The right operand's column coordinate is the summation index. -/
theorem rhs_proj_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product into the zero accumulator, at (l, e): row l of the left operand against row e of the right. -/
theorem proj_matmul_apply (a b : FVec Ideal S1024x1024 .bf16) (l e : Fin 1024) :
    matmul dot_S1024x1024_S1024x1024_S1024x1024_1_1_0_0_n_n none a b (constant (F := Ideal) S1024x1024 .f32 0x00000000#32) (ix2 l e)
      = ∑ d : Fin 1024, a (ix2 l d) * b (ix2 e d) := by
  refine (Ideal.matmul_constant_zero_apply dot_S1024x1024_S1024x1024_S1024x1024_1_1_0_0_n_n none a b (ix2 l e)).trans ?_
  rw [← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 l e) ((ValueIdx.contrEquiv1 dot_S1024x1024_S1024x1024_S1024x1024_1_1_0_0_n_n 1024 rfl rfl).symm k) = ix2 l k := funext fun a => Fin.ext (by
    match a with
    | ⟨0, _⟩ => exact lhs_proj_0 _ _
    | ⟨1, _⟩ => exact (lhs_proj_1 _ _).trans hk)
  have er : dot_S1024x1024_S1024x1024_S1024x1024_1_1_0_0_n_n.rhsIdx (ix2 l e) ((ValueIdx.contrEquiv1 dot_S1024x1024_S1024x1024_S1024x1024_1_1_0_0_n_n 1024 rfl rfl).symm k) = ix2 e k := funext fun a => Fin.ext (by
    match a with
    | ⟨0, _⟩ => exact rhs_proj_0 _ _
    | ⟨1, _⟩ => exact (rhs_proj_1 _ _).trans hk)
  rw [el, er]

/-- What the body stores, at (u, l, e): row l of the query block against row e of the weights (the narrowing
    format changes are the identity on extended reals; the two shape casts drop and add the leading unit axis). -/
theorem proj_payload_apply (x0 : Vec Ideal S1x1024x1024 .f32) (x1 : Vec Ideal S1024x1024 .f32) (u : Fin 1) (l e : Fin 1024) :
    k0_pay1 (F := Ideal) x0 x1 (ix3 u l e) = ∑ d : Fin 1024, x0 (ix3 (0 : Fin 1) l d) * x1 (ix2 e d) := by
  unfold k0_pay1
  refine (shapeCast_ab_1ab_apply _ _ u l e).trans ?_
  refine (truncf_apply (s := S1024x1024) (φ := .f32) (ψ := .bf16) _ bitsLt_bf16_f32 (ix2 l e)).trans ?_
  refine (proj_matmul_apply _ _ l e).trans ?_
  refine Finset.sum_congr rfl fun d _ => ?_
  refine congrArg₂ (· * ·) ?_ ?_
  · refine (truncf_apply (s := S1024x1024) (φ := .f32) (ψ := .bf16) _ bitsLt_bf16_f32 (ix2 l d)).trans ?_
    exact shapeCast_1ab_ab_apply _ _ l d
  · exact truncf_apply (s := S1024x1024) (φ := .f32) (ψ := .bf16) _ bitsLt_bf16_f32 (ix2 e d)

/-! ## From the blocks to the array -/

theorem zero3 : (![0, 0, 0] : Fin 3 → Nat) = fun _ => 0 := funext fun a => by fin_cases a <;> rfl
theorem zero2 : (![0, 0] : Fin 2 → Nat) = fun _ => 0 := funext fun a => by fin_cases a <;> rfl

/-- The projected query rows as one array over (b, l, e), from the region-entry contents. -/
abbrev proj (c : Dev nD) : S32x1024x1024.Idx → EReal := fun i =>
  Cert.Attn.qrow (V c main_arg0 : S32x1024x1024.Idx → EReal) (V c main_arg3 : S1024x1024.Idx → EReal) (i 0) (i 1) (i 2)

/-- The block index maps over the grid: point t takes batch t of the query and of the result, whole; the weights
    are one block. -/
theorem block_index : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The query block at point t is batch t of the query array. -/
theorem query_block_apply (c : Dev nD) (t : Fin cfg0.N) (y : S1x1024x1024.Idx) (k : S32x1024x1024.Idx)
    (h0 : (k 0).val = t.val) (h1 : (k 1).val = (y 1).val) (h2 : (k 2).val = (y 2).val) :
    (iblk0 (F := Ideal) V c 0 t : Vec Ideal S1x1024x1024 .f32) y = (V c main_arg0 : S32x1024x1024.Idx → EReal) k := by
  obtain ⟨e0, e1, e2, -⟩ := block_index t
  unfold iblk0
  rw [View.read_apply]
  show (V c main_arg0 : S32x1024x1024.Idx → EReal) _ = _
  congr 1
  funext a
  apply Fin.ext
  match a with
  | ⟨0, _⟩ => show win0_0.index t (0 : Fin 3) * 1 + 1 * (y 0).val = (k 0).val; have hy : (y 0).val < 1 := (y 0).isLt; omega
  | ⟨1, _⟩ => show win0_0.index t (1 : Fin 3) * 1024 + 1 * (y 1).val = (k 1).val; omega
  | ⟨2, _⟩ => show win0_0.index t (2 : Fin 3) * 1024 + 1 * (y 2).val = (k 2).val; omega

/-- The weights block at every point is the weights array. -/
theorem weight_block_apply (c : Dev nD) (t : Fin cfg0.N) (y : S1024x1024.Idx) :
    (iblk0 (F := Ideal) V c 1 t : Vec Ideal S1024x1024 .f32) y = (V c main_arg3 : S1024x1024.Idx → EReal) y := by
  obtain ⟨-, -, -, e0, e1, -⟩ := block_index t
  unfold iblk0
  rw [View.read_apply]
  show (V c main_arg3 : S1024x1024.Idx → EReal) _ = _
  congr 1
  funext a
  apply Fin.ext
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- What the body stores at an index of the block whose row is l and whose column is e. -/
theorem proj_payload_at (x0 : Vec Ideal S1x1024x1024 .f32) (x1 : Vec Ideal S1024x1024 .f32) (y : S1x1024x1024.Idx)
    (l e : Fin 1024) (hl : (y 1).val = l.val) (he : (y 2).val = e.val) :
    k0_pay1 (F := Ideal) x0 x1 y = ∑ d : Fin 1024, x0 (ix3 (0 : Fin 1) l d) * x1 (ix2 e d) := by
  have hy : y = ix3 (y 0) l e := funext fun a => Fin.ext (by
    match a with
    | ⟨0, _⟩ => rfl
    | ⟨1, _⟩ => exact hl
    | ⟨2, _⟩ => exact he)
  rw [hy]
  exact proj_payload_apply x0 x1 (y 0) l e

/-- What point t writes back is block t of the projected rows. -/
theorem written_block (c : Dev nD) (t : Fin cfg0.N) :
    (dat0 (F := Ideal) V c).flushed 2 t = ((cfg0.win 2).blk t).view.read (Elt Ideal) (proj V c) := by
  show (cfg0.win 2).cut (grid0.coords t) ((dat0 V c).after 2 t) = _
  rw [after0_2]
  unfold out0_2
  rw [View.canon_unit_zero zero3]
  simp only [View.ld_unit_zero (S := S1x1024x1024) zero3, View.ld_unit_zero (S := S1024x1024) zero2]
  obtain ⟨-, -, -, -, -, e0, e1, e2⟩ := block_index t
  funext j
  have hj0 : (j 0).val < 1 := (j 0).isLt
  have hj1 : (j 1).val < 1024 := (j 1).isLt
  have hj2 : (j 2).val < 1024 := (j 2).isLt
  refine (proj_payload_at (iblk0 V c 0 t) (iblk0 V c 1 t) _ ⟨(j 1).val, hj1⟩ ⟨(j 2).val, hj2⟩ rfl rfl).trans ?_
  show _ = Cert.Attn.qrow (V c main_arg0 : S32x1024x1024.Idx → EReal) (V c main_arg3 : S1024x1024.Idx → EReal)
      ((((cfg0.win 2).blk t).view.emb j) 0) ((((cfg0.win 2).blk t).view.emb j) 1) ((((cfg0.win 2).blk t).view.emb j) 2)
  unfold Cert.Attn.qrow
  refine Finset.sum_congr rfl fun d _ => ?_
  refine congrArg₂ (· * ·) ?_ ?_
  · refine query_block_apply V c t _ _ ?_ ?_ ?_
    · show win0_2.index t (0 : Fin 3) * 1 + 1 * (j 0).val = t.val; omega
    · show win0_2.index t (1 : Fin 3) * 1024 + 1 * (j 1).val = (j 1).val; omega
    · rfl
  · refine (weight_block_apply V c t _).trans ?_
    refine congrArg (V c main_arg3 : S1024x1024.Idx → EReal) (funext fun a => Fin.ext ?_)
    match a with
    | ⟨0, _⟩ => show (j 2).val = win0_2.index t (2 : Fin 3) * 1024 + 1 * (j 2).val; omega
    | ⟨1, _⟩ => rfl

/-- An index of the result array is in point t's block iff each coordinate is in the block's range on its axis. -/
theorem mem_block (t : Fin cfg0.N) (i : S32x1024x1024.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v0).slice (win0_2.rect t)).set ↔ _
  rw [View.set_slice_whole, Rect.mem_set_unit]
  exact Iff.rfl

/-- Every index (b, l, e) of the result array lies in the block of point b, which is written back. -/
theorem covered (i : S32x1024x1024.Idx) :
    ∃ t : Fin cfg0.N, (cfg0.win 2).flush t = true ∧ i ∈ ((cfg0.win 2).blk t).view.set := by
  have hi0 : (i 0).val < 32 := (i 0).isLt
  have hi1 : (i 1).val < 1024 := (i 1).isLt
  have hi2 : (i 2).val < 1024 := (i 2).isLt
  have hN : cfg0.N = 32 := N_0
  obtain ⟨t, ht⟩ : ∃ t : Fin cfg0.N, t.val = (i 0).val := ⟨⟨(i 0).val, by rw [hN]; exact hi0⟩, rfl⟩
  obtain ⟨-, -, -, -, -, e0, e1, e2⟩ := block_index t
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- After the first region its output array holds, at (b, l, e), the inner product of query row (b, l) with row e of
    the input weights, whatever the region-entry contents `V` are. -/
theorem region0_final (c : Dev nD) :
    ((dat0 (F := Ideal) V c).arrAt 2 cfg0.N : S32x1024x1024.Idx → EReal)
      = fun i => Cert.Attn.qrow (V c main_arg0 : S32x1024x1024.Idx → EReal) (V c main_arg3 : S1024x1024.Idx → EReal) (i 0) (i 1) (i 2) :=
  (dat0 (F := Ideal) V c).arrAt_eq_of_cover 2 (proj V c) (fun t _ => written_block V c t) covered

end Cert.KernelIdeal.ProjRegion

end
-- ==== Proof.Region1Payload.lean ====
/-
  The attention kernel's body at one entry of its output block.
-/
import proofs.«104273_j9234179687166_1_alg».proof.Proof.Gen.KernelIdeal.Skeleton
import proofs.«104273_j9234179687166_1_alg».proof.Proof.AttnSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AttnBody

open Cert.KernelIdeal Cert.KernelIdeal.Gen Idealize.ShloMosaic Idealize.ShloMosaic.ValueIdx

/-! ## The two contractions read at an entry

The kernel contracts with two sets of dimension numbers over the same three shapes. The first pairs the LAST axis of
both operands (rows against rows: `ld,kd->lk`), the second the last axis of the left operand with the FIRST of the
right (an ordinary matrix product: `lk,kd->ld`). For each, the operand indices at an output entry and a contraction
coordinate are read off axis by axis. -/

theorem lhsT_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem lhsT_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem rhsT_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rhsT_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- Rows against rows into the zero splat: entry (r, k) is the inner product of row r of the left operand with row k
    of the right. -/
theorem matmulT_apply (a : FVec Ideal S256x1024 .bf16) (b : FVec Ideal S1024x1024 .bf16) (r : Fin 256) (k : Fin 1024) :
    matmul (F := Ideal) dot_S256x1024_S1024x1024_S256x1024_1_1_0_0_n_n none a b (constant (F := Ideal) S256x1024 .f32 0x00000000#32) (ix2 r k)
      = ∑ d : Fin 1024, a (ix2 r d) * b (ix2 k d) := by
  simp only [matmul]
  rw [Ideal.matmul_constant_zero_apply, ← Equiv.sum_comp (contrEquiv1 dot_S256x1024_S1024x1024_S256x1024_1_1_0_0_n_n 1024 rfl rfl).symm]
  refine Finset.sum_congr rfl fun d _ => ?_
  have hk := contrEquiv1_symm_val dot_S256x1024_S1024x1024_S256x1024_1_1_0_0_n_n 1024 rfl rfl d
  have el : dot_S256x1024_S1024x1024_S256x1024_1_1_0_0_n_n.lhsIdx (ix2 r k) ((contrEquiv1 dot_S256x1024_S1024x1024_S256x1024_1_1_0_0_n_n 1024 rfl rfl).symm d) = ix2 r d := funext fun ax => Fin.ext (by
    match ax with
    | ⟨0, _⟩ => exact lhsT_0 _ _
    | ⟨1, _⟩ => exact (lhsT_1 _ _).trans hk)
  have er : dot_S256x1024_S1024x1024_S256x1024_1_1_0_0_n_n.rhsIdx (ix2 r k) ((contrEquiv1 dot_S256x1024_S1024x1024_S256x1024_1_1_0_0_n_n 1024 rfl rfl).symm d) = ix2 k d := funext fun ax => Fin.ext (by
    match ax with
    | ⟨0, _⟩ => exact rhsT_0 _ _
    | ⟨1, _⟩ => exact (rhsT_1 _ _).trans hk)
  rw [el, er]

theorem lhsN_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhsN_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhsN_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhsN_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The ordinary matrix product into the zero splat: entry (r, d) is row r of the left operand against column d of the
    right. -/
theorem matmulN_apply (a : FVec Ideal S256x1024 .bf16) (b : FVec Ideal S1024x1024 .bf16) (r : Fin 256) (d : Fin 1024) :
    matmul (F := Ideal) dot_S256x1024_S1024x1024_S256x1024_1_0_0_1_n_n none a b (constant (F := Ideal) S256x1024 .f32 0x00000000#32) (ix2 r d)
      = ∑ k : Fin 1024, a (ix2 r k) * b (ix2 k d) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r d) ((contrEquiv1 dot_S256x1024_S1024x1024_S256x1024_1_0_0_1_n_n 1024 rfl rfl).symm k) = ix2 r k := funext fun ax => Fin.ext (by
    match ax with
    | ⟨0, _⟩ => exact lhsN_0 _ _
    | ⟨1, _⟩ => exact (lhsN_1 _ _).trans hk)
  have er : dot_S256x1024_S1024x1024_S256x1024_1_0_0_1_n_n.rhsIdx (ix2 r d) ((contrEquiv1 dot_S256x1024_S1024x1024_S256x1024_1_0_0_1_n_n 1024 rfl rfl).symm k) = ix2 k d := funext fun ax => Fin.ext (by
    match ax with
    | ⟨0, _⟩ => exact (rhsN_0 _ _).trans hk
    | ⟨1, _⟩ => exact rhsN_1 _ _)
  rw [el, er]

/-! ## A column kept by a row reduction

A row reduction's result `[a]` is viewed as a column `[a, 1]` and spread over the columns again. -/

/-- An `[a]` array cast to the column `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a row reduction of a `[256, 1024]` array inserts at row `r` and coordinate `k` is `(r, k)`. -/
theorem lift_row (r : Fin 256) (k : Fin 1024) : reduces_S256x1024_S256.lift (ix1 r) k = ix2 r k :=
  funext fun ax => Fin.ext (by match ax with | ⟨0, _⟩ => rfl | ⟨1, _⟩ => rfl)

/-- The pattern of the f32 `-∞` is the bottom of the extended reals. -/
theorem ofBits_neg_inf : Ideal.ofBits .f32 0xFF800000#32 = (⊥ : EReal) := by simp [Ideal.ofBits, Ideal.ieee]

/-! ## The body's stages, named

The same operations as the generated payload, each stage a definition over the stages before it, so that each can be
read at an entry by a lemma of its own. -/

section Stages

variable (v0 : Vec Ideal S1x256x1024 .bf16) (v2 : Vec Ideal S1x1024x1024 .f32) (v5 : Vec Ideal S1x256x1024 .i32)
  (v27 v30 : Vec Ideal S1024x1024 .f32)

/-- The query block as a matrix. -/
def qmat : FVec Ideal S256x1024 .bf16 := shapeCast S256x1024 v0 shapeCasts_S1x256x1024_S256x1024
/-- The context block as a matrix. -/
def cmat : FVec Ideal S1024x1024 .bf16 :=
  truncf .bf16 (shapeCast S1024x1024 v2 shapeCasts_S1x1024x1024_S1024x1024 : FVec Ideal S1024x1024 .f32) bitsLt_bf16_f32
/-- The mask block as numbers. -/
def mmat : FVec Ideal S256x1024 .f32 :=
  sitofp .f32 (shapeCast S256x1024 v5 shapeCasts_S1x256x1024_S256x1024 : IVec S256x1024 32)
/-- The scores. -/
def sc8 : FVec Ideal S256x1024 .f32 :=
  matmul dot_S256x1024_S1024x1024_S256x1024_1_1_0_0_n_n none (qmat v0) (cmat v2) (constant S256x1024 .f32 0x00000000#32)
/-- The masked scores. -/
def ms9 : FVec Ideal S256x1024 .f32 := mulf (sc8 v0 v2) (mmat v5)
/-- Each row's largest masked score. -/
def mx10 : FVec Ideal S256 .f32 :=
  multiReduction .maximumf [1] S256 (ms9 v0 v2 v5) 0xFF800000#32 reduces_S256x1024_S256 (.inl rfl) rfl
/-- The same, spread over the row again. -/
def mx12 : FVec Ideal S256x1024 .f32 :=
  broadcastTo S256x1024 (shapeCast S256x1 (mx10 v0 v2 v5) shapeCasts_S256_S256x1 : FVec Ideal S256x1 .f32) broadcasts_S256x1_S256x1024
/-- The unnormalised weights. -/
def pe14 : FVec Ideal S256x1024 .f32 := exp (subf (ms9 v0 v2 v5) (mx12 v0 v2 v5))
/-- Their row sums, as a column. -/
def ps16 : FVec Ideal S256x1 .f32 :=
  shapeCast S256x1 (multiReduction .add [1] S256 (pe14 v0 v2 v5) 0x00000000#32 reduces_S256x1024_S256 (.inl rfl) rfl : FVec Ideal S256 .f32) shapeCasts_S256_S256x1
/-- The masked weights. -/
def kw17 : FVec Ideal S256x1024 .f32 := mulf (pe14 v0 v2 v5) (mmat v5)
/-- Their row sums, as a column. -/
def ks19 : FVec Ideal S256x1 .f32 :=
  shapeCast S256x1 (multiReduction .add [1] S256 (kw17 v0 v2 v5) 0x00000000#32 reduces_S256x1024_S256 (.inl rfl) rfl : FVec Ideal S256 .f32) shapeCasts_S256_S256x1
/-- The denominators, as a column. -/
def kd22 : FVec Ideal S256x1 .f32 :=
  addf (ks19 v0 v2 v5) (mulf (broadcast S256x1 (Scalar.ofBits (F := Ideal) .f32 0x29E12E13#32)) (ps16 v0 v2 v5))
/-- The masked weights against the context. -/
def ac24 : FVec Ideal S256x1024 .f32 :=
  matmul dot_S256x1024_S1024x1024_S256x1024_1_0_0_1_n_n none (truncf .bf16 (kw17 v0 v2 v5) bitsLt_bf16_f32 : FVec Ideal S256x1024 .bf16) (cmat v2)
    (constant S256x1024 .f32 0x00000000#32)
/-- The attended context. -/
def mix26 : FVec Ideal S256x1024 .f32 :=
  divf (ac24 v0 v2 v5) (broadcastTo S256x1024 (kd22 v0 v2 v5) broadcasts_S256x1_S256x1024)
/-- A weight block as a bf16-typed matrix. -/
def wmat (w : Vec Ideal S1024x1024 .f32) : FVec Ideal S1024x1024 .bf16 :=
  truncf .bf16 (shapeCast S1024x1024 w shapeCasts_S1024x1024_S1024x1024 : FVec Ideal S1024x1024 .f32) bitsLt_bf16_f32
/-- The attended context against the first weight block. -/
def o34 : FVec Ideal S256x1024 .f32 :=
  matmul dot_S256x1024_S1024x1024_S256x1024_1_1_0_0_n_n none (truncf .bf16 (mix26 v0 v2 v5) bitsLt_bf16_f32 : FVec Ideal S256x1024 .bf16) (wmat v27)
    (constant S256x1024 .f32 0x00000000#32)
/-- The query block against the second weight block. -/
def o35 : FVec Ideal S256x1024 .f32 :=
  matmul dot_S256x1024_S1024x1024_S256x1024_1_1_0_0_n_n none (qmat v0) (wmat v30) (constant S256x1024 .f32 0x00000000#32)
/-- Their sum: what the hyperbolic tangent is taken of. -/
def o36 : FVec Ideal S256x1024 .f32 := addf (o34 v0 v2 v5 v27) (o35 v0 v30)

/-- The generated payload is the last stage. -/
theorem pay2_eq : k1_pay2 (F := Ideal) v0 v2 v5 v27 v30 = o36 v0 v2 v5 v27 v30 := rfl

end Stages

/-! ## Each stage read at an entry

Throughout, `r` is a row of the query block, `k` a key, `d` and `c` features, `e` an output feature. The row's query is
row `r` of the query block, the context rows are the context block's, and the mask entries are row `r` of the mask
block read as signed integers. -/

section Reads

variable (v0 : Vec Ideal S1x256x1024 .bf16) (v2 : Vec Ideal S1x1024x1024 .f32) (v5 : Vec Ideal S1x256x1024 .i32)
  (v27 v30 : Vec Ideal S1024x1024 .f32)

/-- Row `r` of the query block. -/
abbrev qOf (r : Fin 256) : Fin 1024 → EReal := fun d => v0 (ix3 (0 : Fin 1) r d)
/-- The context block's rows. -/
abbrev cOf : Fin 1024 → Fin 1024 → EReal := fun k d => v2 (ix3 (0 : Fin 1) k d)
/-- Row `r` of the mask block, each word read as a signed integer. -/
abbrev mOf (r : Fin 256) : Fin 1024 → EReal := fun k => ((((v5 (ix3 (0 : Fin 1) r k) : BitVec 32)).toInt : ℝ) : EReal)

theorem qmat_at (r : Fin 256) (d : Fin 1024) : qmat v0 (ix2 r d) = v0 (ix3 (0 : Fin 1) r d) :=
  shapeCast_1ab_ab_apply v0 shapeCasts_S1x256x1024_S256x1024 r d

theorem cmat_at (k d : Fin 1024) : cmat v2 (ix2 k d) = v2 (ix3 (0 : Fin 1) k d) :=
  shapeCast_1ab_ab_apply v2 shapeCasts_S1x1024x1024_S1024x1024 k d

theorem mmat_at (r : Fin 256) (k : Fin 1024) : mmat v5 (ix2 r k) = mOf v5 r k := by
  show FloatOps.sitofp (F := Ideal) .f32 (shapeCast S256x1024 v5 shapeCasts_S1x256x1024_S256x1024 (ix2 r k)) = _
  rw [shapeCast_1ab_ab_apply v5 shapeCasts_S1x256x1024_S256x1024 r k]
  rfl

theorem wmat_at (w : Vec Ideal S1024x1024 .f32) (e c : Fin 1024) : wmat w (ix2 e c) = w (ix2 e c) := by
  unfold wmat
  rw [truncf_apply, shapeCast_self]

theorem sc8_at (r : Fin 256) (k : Fin 1024) : sc8 v0 v2 (ix2 r k) = Cert.Attn.score (qOf v0 r) (cOf v2) k := by
  unfold sc8 Cert.Attn.score
  rw [matmulT_apply]
  exact Finset.sum_congr rfl fun d _ => by rw [qmat_at, cmat_at]

theorem ms9_at (r : Fin 256) (k : Fin 1024) : ms9 v0 v2 v5 (ix2 r k) = Cert.Attn.mscore (qOf v0 r) (cOf v2) (mOf v5 r) k := by
  unfold ms9 Cert.Attn.mscore
  rw [mulf_apply, sc8_at, mmat_at]

theorem mx10_at (r : Fin 256) : mx10 v0 v2 v5 (ix1 r) = Cert.Attn.rowMax (qOf v0 r) (cOf v2) (mOf v5 r) := by
  unfold mx10 Cert.Attn.rowMax
  refine (Ideal.multiReduction_maximumf_single (ms9 v0 v2 v5) 0xFF800000#32 reduces_S256x1024_S256 (.inl rfl) rfl (ix1 r)).trans ?_
  show (Finset.univ : Finset (Fin 1024)).fold max (Ideal.ofBits .f32 0xFF800000#32)
    (fun k => ms9 v0 v2 v5 (reduces_S256x1024_S256.lift (ix1 r) k)) = _
  rw [ofBits_neg_inf]
  refine congrArg (fun f => (Finset.univ : Finset (Fin 1024)).fold max (⊥ : EReal) f) (funext fun (k : Fin 1024) => ?_)
  exact (congrArg (ms9 v0 v2 v5) (lift_row r k)).trans (ms9_at v0 v2 v5 r k)

theorem mx12_at (r : Fin 256) (k : Fin 1024) : mx12 v0 v2 v5 (ix2 r k) = Cert.Attn.rowMax (qOf v0 r) (cOf v2) (mOf v5 r) := by
  unfold mx12
  refine (broadcastTo_a1_ab_apply _ _ r k).trans ?_
  refine (shapeCast_a_a1_apply _ _ r (0 : Fin 1)).trans ?_
  exact mx10_at v0 v2 v5 r

theorem pe14_at (r : Fin 256) (k : Fin 1024) : pe14 v0 v2 v5 (ix2 r k) = Cert.Attn.pexp (qOf v0 r) (cOf v2) (mOf v5 r) k := by
  unfold pe14 Cert.Attn.pexp
  show Ideal.exp (ms9 v0 v2 v5 (ix2 r k) - mx12 v0 v2 v5 (ix2 r k)) = _
  rw [ms9_at, mx12_at]

theorem ps16_at (r : Fin 256) (u : Fin 1) : ps16 v0 v2 v5 (ix2 r u) = Cert.Attn.psum (qOf v0 r) (cOf v2) (mOf v5 r) := by
  unfold ps16 Cert.Attn.psum
  refine (shapeCast_a_a1_apply _ _ r u).trans ?_
  refine (Ideal.multiReduction_add_single (pe14 v0 v2 v5) 0x00000000#32 reduces_S256x1024_S256 (.inl rfl) rfl (ix1 r)).trans ?_
  show ∑ k : Fin 1024, pe14 v0 v2 v5 (reduces_S256x1024_S256.lift (ix1 r) k) = _
  exact Finset.sum_congr rfl fun k _ => by rw [lift_row, pe14_at]

theorem kw17_at (r : Fin 256) (k : Fin 1024) : kw17 v0 v2 v5 (ix2 r k) = Cert.Attn.kw (qOf v0 r) (cOf v2) (mOf v5 r) k := by
  unfold kw17 Cert.Attn.kw
  rw [mulf_apply, pe14_at, mmat_at]

theorem ks19_at (r : Fin 256) (u : Fin 1) :
    ks19 v0 v2 v5 (ix2 r u) = ∑ k : Fin 1024, Cert.Attn.kw (qOf v0 r) (cOf v2) (mOf v5 r) k := by
  unfold ks19
  refine (shapeCast_a_a1_apply _ _ r u).trans ?_
  refine (Ideal.multiReduction_add_single (kw17 v0 v2 v5) 0x00000000#32 reduces_S256x1024_S256 (.inl rfl) rfl (ix1 r)).trans ?_
  show ∑ k : Fin 1024, kw17 v0 v2 v5 (reduces_S256x1024_S256.lift (ix1 r) k) = _
  exact Finset.sum_congr rfl fun k _ => by rw [lift_row, kw17_at]

theorem kd22_at (r : Fin 256) (u : Fin 1) :
    kd22 v0 v2 v5 (ix2 r u) = Cert.Attn.kden (qOf v0 r) (cOf v2) (mOf v5 r) Cert.Attn.epsW := by
  unfold kd22 Cert.Attn.kden
  show ks19 v0 v2 v5 (ix2 r u) + Cert.Attn.epsW * ps16 v0 v2 v5 (ix2 r u) = _
  rw [ks19_at, ps16_at]

theorem ac24_at (r : Fin 256) (d : Fin 1024) :
    ac24 v0 v2 v5 (ix2 r d) = ∑ k : Fin 1024, Cert.Attn.kw (qOf v0 r) (cOf v2) (mOf v5 r) k * v2 (ix3 (0 : Fin 1) k d) := by
  unfold ac24
  rw [matmulN_apply]
  exact Finset.sum_congr rfl fun k _ => by rw [truncf_apply, kw17_at, cmat_at]

theorem mix26_at (r : Fin 256) (d : Fin 1024) :
    mix26 v0 v2 v5 (ix2 r d) = Cert.Attn.kmix (qOf v0 r) (cOf v2) (mOf v5 r) Cert.Attn.epsW d := by
  unfold mix26 Cert.Attn.kmix
  rw [divf_apply, ac24_at]
  refine congrArg (Ideal.div _) ?_
  exact (broadcastTo_a1_ab_apply _ _ r d).trans (kd22_at v0 v2 v5 r (0 : Fin 1))

theorem o34_at (r : Fin 256) (e : Fin 1024) :
    o34 v0 v2 v5 v27 (ix2 r e)
      = ∑ c : Fin 1024, Cert.Attn.kmix (qOf v0 r) (cOf v2) (mOf v5 r) Cert.Attn.epsW c * v27 (ix2 e c) := by
  unfold o34
  rw [matmulT_apply]
  exact Finset.sum_congr rfl fun c _ => by rw [truncf_apply, mix26_at, wmat_at]

theorem o35_at (r : Fin 256) (e : Fin 1024) : o35 v0 v30 (ix2 r e) = ∑ c : Fin 1024, v0 (ix3 (0 : Fin 1) r c) * v30 (ix2 e c) := by
  unfold o35
  rw [matmulT_apply]
  exact Finset.sum_congr rfl fun c _ => by rw [qmat_at, wmat_at]

end Reads

/-- Entry (r, e) of the stored block is the first arrangement's output entry for row r of the query block, the whole
    context block, row r of the mask block, and rows e of the two weight blocks. -/
theorem pay_apply (v0 : Vec Ideal S1x256x1024 .bf16) (v2 : Vec Ideal S1x1024x1024 .f32) (v5 : Vec Ideal S1x256x1024 .i32)
    (v27 v30 : Vec Ideal S1024x1024 .f32) (r : Fin 256) (e : Fin 1024) :
    k1_pay1 (F := Ideal) (k1_pay2 (F := Ideal) v0 v2 v5 v27 v30) (ix3 (0 : Fin 1) r e)
      = Cert.Attn.kout (fun d => v0 (ix3 (0 : Fin 1) r d)) (fun k d => v2 (ix3 (0 : Fin 1) k d))
          (fun k => ((((v5 (ix3 (0 : Fin 1) r k) : BitVec 32)).toInt : ℝ) : EReal)) Cert.Attn.epsW
          (fun c => v27 (ix2 e c)) (fun c => v30 (ix2 e c)) := by
  rw [pay2_eq]
  unfold k1_pay1
  refine (shapeCast_ab_1ab_apply _ _ (0 : Fin 1) r e).trans ?_
  show Ideal.tanh (o34 v0 v2 v5 v27 (ix2 r e) + o35 v0 v30 (ix2 r e)) = _
  unfold Cert.Attn.kout
  rw [o34_at, o35_at]

end Cert.KernelIdeal.AttnBody

end
-- ==== Proof.Region1Value.lean ====
/-
  The attention kernel's result array: every entry is the first arrangement's output entry.
-/
import proofs.«104273_j9234179687166_1_alg».proof.Proof.Gen.KernelIdeal.Frame
import proofs.«104273_j9234179687166_1_alg».proof.Proof.Region1Payload

set_option maxRecDepth 16384

noncomputable section

namespace Cert.KernelIdeal.AttnRegion

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- Zero offsets on three axes, and on two, however the zeros are spelt. -/
theorem zero3 : (![0, 0, 0] : Fin 3 → Nat) = fun _ => 0 := funext fun a => by fin_cases a <;> rfl
theorem zero2 : (![0, 0] : Fin 2 → Nat) = fun _ => 0 := funext fun a => by fin_cases a <;> rfl

/-- The whole result array as one function of the five arrays the region reads: entry (b, l, e) is the first
    arrangement's output entry for query row (b, l), the context rows of batch b, mask row (b, l) read signed, and
    rows e of the two weight halves. -/
def attnArray (a0 a1 : S32x1024x1024.Idx → EReal) (a2 : S32x1024x1024.Idx → BitVec 32) (a3 a4 : S1024x1024.Idx → EReal) :
    S32x1024x1024.Idx → EReal := fun i =>
  Cert.Attn.kout (fun d => a0 (ix3 (i 0) (i 1) d)) (fun k d => a1 (ix3 (i 0) k d))
    (fun k => ((((a2 (ix3 (i 0) (i 1) k)).toInt : ℝ) : EReal))) Cert.Attn.epsW
    (fun cc => a3 (ix2 (i 2) cc)) (fun cc => a4 (ix2 (i 2) cc))

/-- The index maps over the 32 × 4 grid: point t = 4 b + q carries output block (b, q, 0); the query and mask blocks
    sit at the same block index, the context block at (b, 0, 0), and the two weight halves are whole. -/
theorem grid_blocks : ∀ t : Fin cfg1.N,
    win1_5.index t (0 : Fin 3) = t.val / 4 ∧ win1_5.index t (1 : Fin 3) = t.val % 4 ∧ win1_5.index t (2 : Fin 3) = 0
    ∧ win1_0.index t (0 : Fin 3) = win1_5.index t (0 : Fin 3) ∧ win1_0.index t (1 : Fin 3) = win1_5.index t (1 : Fin 3) ∧ win1_0.index t (2 : Fin 3) = 0
    ∧ win1_1.index t (0 : Fin 3) = win1_5.index t (0 : Fin 3) ∧ win1_1.index t (1 : Fin 3) = 0 ∧ win1_1.index t (2 : Fin 3) = 0
    ∧ win1_2.index t (0 : Fin 3) = win1_5.index t (0 : Fin 3) ∧ win1_2.index t (1 : Fin 3) = win1_5.index t (1 : Fin 3) ∧ win1_2.index t (2 : Fin 3) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- An index of a block with a leading unit axis has first coordinate zero. -/
theorem unit_axis_idx (j : S1x256x1024.Idx) : j = ix3 (0 : Fin 1) (j 1 : Fin 256) (j 2 : Fin 1024) := by
  funext d
  match d with
  | ⟨0, _⟩ => exact Fin.ext (by have hj : (j 0).val < 1 := (j 0).isLt; show (j 0).val = 0; omega)
  | ⟨1, _⟩ => rfl
  | ⟨2, _⟩ => rfl

/-- One entry of the stored block is the array function at the array index it lands on, once each loaded block is the
    matching part of its array. -/
theorem block_entry (x0 : Vec Ideal S1x256x1024 .bf16) (x1 : Vec Ideal S1x1024x1024 .f32) (x2 : Vec Ideal S1x256x1024 .i32)
    (x3 x4 : Vec Ideal S1024x1024 .f32)
    (a0 a1 : S32x1024x1024.Idx → EReal) (a2 : S32x1024x1024.Idx → BitVec 32) (a3 a4 : S1024x1024.Idx → EReal)
    (j : S1x256x1024.Idx) (i : S32x1024x1024.Idx)
    (h0 : ∀ d : Fin 1024, x0 (ix3 (0 : Fin 1) (j 1 : Fin 256) d) = a0 (ix3 (i 0) (i 1) d))
    (h1 : ∀ k d : Fin 1024, x1 (ix3 (0 : Fin 1) k d) = a1 (ix3 (i 0) k d))
    (h2 : ∀ k : Fin 1024, x2 (ix3 (0 : Fin 1) (j 1 : Fin 256) k) = a2 (ix3 (i 0) (i 1) k))
    (h3 : ∀ cc : Fin 1024, x3 (ix2 (j 2 : Fin 1024) cc) = a3 (ix2 (i 2) cc))
    (h4 : ∀ cc : Fin 1024, x4 (ix2 (j 2 : Fin 1024) cc) = a4 (ix2 (i 2) cc)) :
    k1_pay1 (F := Ideal) (k1_pay2 (F := Ideal) x0 x1 x2 x3 x4) j = attnArray a0 a1 a2 a3 a4 i := by
  refine (congrArg (k1_pay1 (F := Ideal) (k1_pay2 (F := Ideal) x0 x1 x2 x3 x4)) (unit_axis_idx j)).trans ?_
  refine (Cert.KernelIdeal.AttnBody.pay_apply x0 x1 x2 x3 x4 (j 1) (j 2)).trans ?_
  show Cert.Attn.kout _ _ _ _ _ _ = Cert.Attn.kout _ _ _ _ _ _
  congr 1
  · exact funext h0
  · exact funext fun k => funext (h1 k)
  · exact funext fun k => congrArg (fun w : BitVec 32 => ((w.toInt : ℝ) : EReal)) (h2 k)
  · exact funext h3
  · exact funext h4

/-- An index of the array lies in point t's output block iff each coordinate lies in the block's range on its axis. -/
theorem mem_out_block (t : Fin cfg1.N) (i : S32x1024x1024.Idx) :
    i ∈ ((cfg1.win 5).blk t).view.set ↔ ∀ a : Fin 3, win1_5.index t a * S1x256x1024.size a ≤ (i a).val
      ∧ (i a).val < win1_5.index t a * S1x256x1024.size a + S1x256x1024.size a := by
  show i ∈ ((View.whole main_v4).slice (win1_5.rect t)).set ↔ _
  rw [View.set_slice_whole, Rect.mem_set_unit]
  exact Iff.rfl

/-- Every index (b, l, e) of the array lies in the output block of point 4 b + l / 256, which is written back. -/
theorem out_blocks_cover (i : S32x1024x1024.Idx) :
    ∃ t : Fin cfg1.N, (cfg1.win 5).flush t = true ∧ i ∈ ((cfg1.win 5).blk t).view.set := by
  have hi0 : (i 0).val < 32 := (i 0).isLt
  have hi1 : (i 1).val < 1024 := (i 1).isLt
  have hi2 : (i 2).val < 1024 := (i 2).isLt
  have hN : cfg1.N = 128 := rfl
  obtain ⟨t, ht⟩ : ∃ t : Fin cfg1.N, t.val = (i 0).val * 4 + (i 1).val / 256 :=
    ⟨⟨(i 0).val * 4 + (i 1).val / 256, by rw [hN]; omega⟩, rfl⟩
  refine ⟨t, flush1_5 t, ?_⟩
  rw [mem_out_block]
  obtain ⟨e50, e51, e52, -⟩ := grid_blocks t
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 256 ≤ (i 1).val ∧ (i 1).val < win1_5.index t (1 : Fin 3) * 256 + 256; omega
  | ⟨2, _⟩ => show win1_5.index t (2 : Fin 3) * 1024 ≤ (i 2).val ∧ (i 2).val < win1_5.index t (2 : Fin 3) * 1024 + 1024; omega

/-- What point t writes back is block t of the array function of the five arrays as the region finds them. -/
theorem written_back_eq (c : Dev nD) (t : Fin cfg1.N) :
    (dat1 (F := Ideal) V c).flushed 5 t = ((cfg1.win 5).blk t).view.read (Elt Ideal)
      (attnArray (V c main_v0) (V c main_arg1) (V c main_v1) (V c main_v2) (V c main_v3)) := by
  show (cfg1.win 5).cut (grid1.coords t) ((dat1 (F := Ideal) V c).after 5 t) = _
  rw [after1_5]
  unfold out1_5
  rw [View.canon_unit_zero zero3]
  simp only [View.ld_unit_zero (S := S1x256x1024) zero3, View.ld_unit_zero (S := S1x1024x1024) zero3,
    View.ld_unit_zero (S := S1024x1024) zero2]
  obtain ⟨e50, e51, e52, e00, e01, e02, e10, e11, e12, e20, e21, e22, e30, e31, e40, e41⟩ := grid_blocks t
  funext j
  show k1_pay1 (F := Ideal) (k1_pay2 (F := Ideal) (iblk1 V c 0 t) (iblk1 V c 1 t) (iblk1 V c 2 t) (iblk1 V c 3 t) (iblk1 V c 4 t)) j
    = attnArray (V c main_v0) (V c main_arg1) (V c main_v1) (V c main_v2) (V c main_v3) (((cfg1.win 5).blk t).view.emb j)
  have hj0 : (j 0).val < 1 := (j 0).isLt
  have hj1 : (j 1).val < 256 := (j 1).isLt
  have hj2 : (j 2).val < 1024 := (j 2).isLt
  refine block_entry _ _ _ _ _ _ _ _ _ _ j _ ?_ ?_ ?_ ?_ ?_
  · intro d
    show V c main_v0 (((cfg1.win 0).blk t).view.emb (ix3 (0 : Fin 1) (j 1 : Fin 256) d)) = V c main_v0 _
    refine congrArg _ (funext fun a => Fin.ext ?_)
    match a with
    | ⟨0, _⟩ => show win1_0.index t (0 : Fin 3) * 1 + 1 * 0 = win1_5.index t (0 : Fin 3) * 1 + 1 * (j 0).val; omega
    | ⟨1, _⟩ => show win1_0.index t (1 : Fin 3) * 256 + 1 * (j 1).val = win1_5.index t (1 : Fin 3) * 256 + 1 * (j 1).val; omega
    | ⟨2, _⟩ => show win1_0.index t (2 : Fin 3) * 1024 + 1 * d.val = d.val; omega
  · intro k d
    show V c main_arg1 (((cfg1.win 1).blk t).view.emb (ix3 (0 : Fin 1) k d)) = V c main_arg1 _
    refine congrArg _ (funext fun a => Fin.ext ?_)
    match a with
    | ⟨0, _⟩ => show win1_1.index t (0 : Fin 3) * 1 + 1 * 0 = win1_5.index t (0 : Fin 3) * 1 + 1 * (j 0).val; omega
    | ⟨1, _⟩ => show win1_1.index t (1 : Fin 3) * 1024 + 1 * k.val = k.val; omega
    | ⟨2, _⟩ => show win1_1.index t (2 : Fin 3) * 1024 + 1 * d.val = d.val; omega
  · intro k
    show V c main_v1 (((cfg1.win 2).blk t).view.emb (ix3 (0 : Fin 1) (j 1 : Fin 256) k)) = V c main_v1 _
    refine congrArg _ (funext fun a => Fin.ext ?_)
    match a with
    | ⟨0, _⟩ => show win1_2.index t (0 : Fin 3) * 1 + 1 * 0 = win1_5.index t (0 : Fin 3) * 1 + 1 * (j 0).val; omega
    | ⟨1, _⟩ => show win1_2.index t (1 : Fin 3) * 256 + 1 * (j 1).val = win1_5.index t (1 : Fin 3) * 256 + 1 * (j 1).val; omega
    | ⟨2, _⟩ => show win1_2.index t (2 : Fin 3) * 1024 + 1 * k.val = k.val; omega
  · intro cc
    show V c main_v2 (((cfg1.win 3).blk t).view.emb (ix2 (j 2 : Fin 1024) cc)) = V c main_v2 _
    refine congrArg _ (funext fun a => Fin.ext ?_)
    match a with
    | ⟨0, _⟩ => show win1_3.index t (0 : Fin 2) * 1024 + 1 * (j 2).val = win1_5.index t (2 : Fin 3) * 1024 + 1 * (j 2).val; omega
    | ⟨1, _⟩ => show win1_3.index t (1 : Fin 2) * 1024 + 1 * cc.val = cc.val; omega
  · intro cc
    show V c main_v3 (((cfg1.win 4).blk t).view.emb (ix2 (j 2 : Fin 1024) cc)) = V c main_v3 _
    refine congrArg _ (funext fun a => Fin.ext ?_)
    match a with
    | ⟨0, _⟩ => show win1_4.index t (0 : Fin 2) * 1024 + 1 * (j 2).val = win1_5.index t (2 : Fin 3) * 1024 + 1 * (j 2).val; omega
    | ⟨1, _⟩ => show win1_4.index t (1 : Fin 2) * 1024 + 1 * cc.val = cc.val; omega

/-- After the second region its output array holds, at (b, l, e), the first arrangement's output entry computed from
    row (b, l) of the projected-query array, batch b of the context array, row (b, l) of the reshaped mask and rows e
    of the two halves of the output weights, whatever the region-entry contents `V` are. -/
theorem region1_final (c : Dev nD) :
    ((dat1 (F := Ideal) V c).arrAt 5 cfg1.N : S32x1024x1024.Idx → EReal)
      = fun i => Cert.Attn.kout (fun d => (V c main_v0 : S32x1024x1024.Idx → EReal) (ix3 (i 0) (i 1) d))
          (fun k d => (V c main_arg1 : S32x1024x1024.Idx → EReal) (ix3 (i 0) k d))
          (fun k => ((((V c main_v1 : S32x1024x1024.Idx → BitVec 32) (ix3 (i 0) (i 1) k)).toInt : ℝ) : EReal)) Cert.Attn.epsW
          (fun cc => (V c main_v2 : S1024x1024.Idx → EReal) (ix2 (i 2) cc))
          (fun cc => (V c main_v3 : S1024x1024.Idx → EReal) (ix2 (i 2) cc)) :=
  (dat1 (F := Ideal) V c).arrAt_eq_of_cover 5 (attnArray (V c main_v0) (V c main_arg1) (V c main_v1) (V c main_v2) (V c main_v3))
    (fun t _ => written_back_eq V c t) out_blocks_cover

end Cert.KernelIdeal.AttnRegion

end
-- ==== Proof.KernelValue.lean ====
/-
  The kernel program's result array as a function of its launch arguments.

  The second region reads five arrays. The projected query is what the first region left (the host operations
  between the regions do not touch it); the context is an argument; the mask is the flat mask reshaped, so its row
  (b, l) is row b · 1024 + l of the argument; the two weight arrays are the left and right halves of the output
  weights. Substituting these into the second region's result gives the first arrangement's result array.
-/
import proofs.«104273_j9234179687166_1_alg».proof.Proof.Gen.KernelIdeal.Frame
import proofs.«104273_j9234179687166_1_alg».proof.Proof.Region0Value
import proofs.«104273_j9234179687166_1_alg».proof.Proof.Region1Value
import Idealize.ShloMosaic.Lib.StableHlo.Run
import Idealize.ShloMosaic.Lib.Pipeline.Value

set_option maxRecDepth 16384

noncomputable section

namespace Cert.KernelIdeal.KernelValue

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- No host operation between the regions writes buffer `b` when `b` is none of the three buffers they define. -/
theorem W2_of_not_written (c : Dev nD) (b : Ref sig .tc) (h1 : b ≠ main_v1) (h2 : b ≠ main_v2) (h3 : b ≠ main_v3) :
    W2 m ρ c (Proc.devRef .tc b) = W1 m ρ c (Proc.devRef .tc b) := by
  refine StableHlo.after_of_forall_not_mem (b := Proc.devRef .tc b) _ _ (List.forall_iff_forall_mem.mp ?_)
  simp only [hostOps1, List.Forall, StableHlo.unary_writes, StableHlo.reshape_writes, Finset.mem_singleton]
  exact ⟨StableHlo.devRef_ne_of_ne h1, StableHlo.devRef_ne_of_ne h2, StableHlo.devRef_ne_of_ne h3⟩

/-- A buffer that is no array of the first region is, after it, what the launch memory held. -/
theorem W1_launch (c : Dev nD) (b : Ref sig .tc) (hb : ∀ w, Pipeline.arrRef spec0 w ≠ b) :
    W1 m ρ c (Proc.devRef .tc b) = m ((c : Thread nD τ).loc b) :=
  (W1_of_ne m ρ c b hb).trans rfl

/-- The projected query the second region reads is the first region's result: the inner products of the query rows
    with the rows of the input weights. -/
theorem V2_query (c : Dev nD) :
    (W2 m ρ c (Proc.devRef .tc main_v0) : S32x1024x1024.Idx → EReal)
      = fun i => Cert.Attn.qrow (m ((c : Thread nD τ).loc main_arg0)) (m ((c : Thread nD τ).loc main_arg3)) (i 0) (i 1) (i 2) :=
  calc W2 m ρ c (Proc.devRef .tc main_v0)
    _ = W1 m ρ c (Proc.devRef .tc main_v0) := W2_of_not_written m ρ c main_v0 (by decide) (by decide) (by decide)
    _ = (dat0 (V0 m ρ) c).arrAt 2 cfg0.N := W1_arr m ρ c 2
    _ = _ := ProjRegion.region0_final (V0 m ρ) c

/-- The context the second region reads is the argument. -/
theorem V2_context (c : Dev nD) : W2 m ρ c (Proc.devRef .tc main_arg1) = m ((c : Thread nD τ).loc main_arg1) :=
  (W2_of_not_written m ρ c main_arg1 (by decide) (by decide) (by decide)).trans (W1_launch m ρ c main_arg1 (by decide))

/-- The mask the second region reads is the flat mask reshaped. -/
theorem V2_mask (c : Dev nD) :
    (W2 m ρ c (Proc.devRef .tc main_v1) : S32x1024x1024.Idx → BitVec 32)
      = shapeCast S32x1024x1024 (m ((c : Thread nD τ).loc main_arg2)) shapeCasts_S32768x1024_S32x1024x1024 := by
  show StableHlo.after hostOps1 _ (Proc.devRef .tc main_v1) = _
  after_results
  rw [W1_launch m ρ c main_arg2 (by decide)]
  rfl

/-- The first weight array the second region reads is the left half of the output weights. -/
theorem V2_wleft (c : Dev nD) :
    (W2 m ρ c (Proc.devRef .tc main_v2) : S1024x1024.Idx → EReal)
      = extractStridedSlice S1024x1024 ![0, 0] (m ((c : Thread nD τ).loc main_arg4)) slices_S1024x2048_S1024x1024_0_0 := by
  show StableHlo.after hostOps1 _ (Proc.devRef .tc main_v2) = _
  after_results
  rw [W1_launch m ρ c main_arg4 (by decide)]

/-- The second weight array the second region reads is the right half of the output weights. -/
theorem V2_wright (c : Dev nD) :
    (W2 m ρ c (Proc.devRef .tc main_v3) : S1024x1024.Idx → EReal)
      = extractStridedSlice S1024x1024 ![0, 1024] (m ((c : Thread nD τ).loc main_arg4)) slices_S1024x2048_S1024x1024_0_1024 := by
  show StableHlo.after hostOps1 _ (Proc.devRef .tc main_v3) = _
  after_results
  rw [W1_launch m ρ c main_arg4 (by decide)]

/-- Row (b, l) of the reshaped mask is row b · 1024 + l of the flat mask. -/
theorem mask_reshape_apply (M : S32768x1024.Idx → BitVec 32) (b : Fin 32) (l k : Fin 1024) :
    shapeCast S32x1024x1024 M shapeCasts_S32768x1024_S32x1024x1024 (ix3 b l k) = M (ix2 (Cert.Attn.mrow b l) k) := by
  refine shapeCast_apply M _ (ix3 b l k) (ix2 (Cert.Attn.mrow b l) k) ?_
  rw [Shape.rowMajor_val_two, Shape.rowMajor_val_three]
  show (b.val * 1024 + l.val) * 1024 + k.val = (b.val * 1024 + l.val) * 1024 + k.val
  rfl

/-- The left half of the output weights at (e, c) is the output weights at (e, c). -/
theorem wleft_apply (Wo : S1024x2048.Idx → EReal) (e c : Fin 1024) :
    extractStridedSlice S1024x1024 ![0, 0] Wo slices_S1024x2048_S1024x1024_0_0 (ix2 e c)
      = Wo (ix2 e (⟨c.val, by omega⟩ : Fin 2048)) := by
  refine extractStridedSlice_apply _ Wo _ (ix2 e c) (ix2 e (⟨c.val, by omega⟩ : Fin 2048)) fun a => ?_
  match a with
  | ⟨0, _⟩ => simp
  | ⟨1, _⟩ => simp

/-- The right half of the output weights at (e, c) is the output weights at (e, 1024 + c). -/
theorem wright_apply (Wo : S1024x2048.Idx → EReal) (e c : Fin 1024) :
    extractStridedSlice S1024x1024 ![0, 1024] Wo slices_S1024x2048_S1024x1024_0_1024 (ix2 e c)
      = Wo (ix2 e (⟨1024 + c.val, by omega⟩ : Fin 2048)) := by
  refine extractStridedSlice_apply _ Wo _ (ix2 e c) (ix2 e (⟨1024 + c.val, by omega⟩ : Fin 2048)) fun a => ?_
  match a with
  | ⟨0, _⟩ => simp
  | ⟨1, _⟩ => simp

/-- The output entry depends on its five rows only. -/
theorem kout_congr {q q' : Fin 1024 → EReal} {ctx ctx' : Fin 1024 → Fin 1024 → EReal} {mk mk' : Fin 1024 → EReal} (ε : EReal)
    {wa wa' wb wb' : Fin 1024 → EReal} (hq : q = q') (hc : ctx = ctx') (hm : mk = mk') (ha : wa = wa') (hb : wb = wb') :
    Cert.Attn.kout q ctx mk ε wa wb = Cert.Attn.kout q' ctx' mk' ε wa' wb' := by
  subst hq hc hm ha hb; rfl

/-- The kernel program's result array is the first arrangement's result array of the launch arguments. -/
theorem kernel_value (c : Dev nD) :
    (W3 m ρ c (Proc.devRef .tc main_v4) : S32x1024x1024.Idx → EReal)
      = Cert.Attn.GK (m ((c : Thread nD τ).loc main_arg0)) (m ((c : Thread nD τ).loc main_arg1)) (m ((c : Thread nD τ).loc main_arg2))
          (m ((c : Thread nD τ).loc main_arg3)) (m ((c : Thread nD τ).loc main_arg4)) := by
  have h : (W3 m ρ c (Proc.devRef .tc main_v4) : S32x1024x1024.Idx → EReal)
      = fun i => Cert.Attn.kout (fun d => (V2 m ρ c main_v0 : S32x1024x1024.Idx → EReal) (ix3 (i 0) (i 1) d))
          (fun k d => (V2 m ρ c main_arg1 : S32x1024x1024.Idx → EReal) (ix3 (i 0) k d))
          (fun k => ((((V2 m ρ c main_v1 : S32x1024x1024.Idx → BitVec 32) (ix3 (i 0) (i 1) k)).toInt : ℝ) : EReal)) Cert.Attn.epsW
          (fun cc => (V2 m ρ c main_v2 : S1024x1024.Idx → EReal) (ix2 (i 2) cc))
          (fun cc => (V2 m ρ c main_v3 : S1024x1024.Idx → EReal) (ix2 (i 2) cc)) :=
    (W3_arr m ρ c 5).trans (AttnRegion.region1_final (V2 m ρ) c)
  refine h.trans ?_
  funext (i : S32x1024x1024.Idx)
  unfold Cert.Attn.GK
  refine kout_congr _ (funext fun d => ?_) (funext fun k => funext fun d => ?_) (funext fun k => ?_) (funext fun cc => ?_) (funext fun cc => ?_)
  · exact congrFun (V2_query m ρ c) (ix3 (i 0) (i 1) d)
  · exact congrFun (V2_context m ρ c) (ix3 (i 0) k d)
  · exact congrArg (fun w : BitVec 32 => ((w.toInt : ℝ) : EReal))
      ((congrFun (V2_mask m ρ c) (ix3 (i 0) (i 1) k)).trans (mask_reshape_apply _ (i 0) (i 1) k))
  · exact (congrFun (V2_wleft m ρ c) (ix2 (i 2) cc)).trans (wleft_apply _ (i 2) cc)
  · exact (congrFun (V2_wright m ρ c) (ix2 (i 2) cc)).trans (wright_apply _ (i 2) cc)

end Cert.KernelIdeal.KernelValue

end
-- ==== Proof.RefMix.lean ====
/-
  The reference's stages up to the attended context, read at an index.
-/
import proofs.«104273_j9234179687166_1_alg».proof.Proof.RefRead
import proofs.«104273_j9234179687166_1_alg».proof.Proof.AttnSpec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.ReadP Idealize.ShloMosaic Idealize.ShloMosaic.ValueIdx

/-! ### The stages' index functions at a row's coordinates -/

/-- The projection's left operand index at (b, l, ·) with contraction coordinate k is (b, l, k). -/
private theorem lidx_v0 (b : Fin 32) (l e k : Fin 1024) : lidx_main_v0 (ix3 b l e) k = ix3 b l k :=
  funext fun a => Fin.ext (by match a with | ⟨0, _⟩ => rfl | ⟨1, _⟩ => rfl | ⟨2, _⟩ => rfl)

/-- The projection's right operand index at (·, ·, e) with contraction coordinate k is (e, k). -/
private theorem ridx_v0 (b : Fin 32) (l e k : Fin 1024) : ridx_main_v0 (ix3 b l e) k = ix2 e k :=
  funext fun a => Fin.ext (by match a with | ⟨0, _⟩ => rfl | ⟨1, _⟩ => rfl)

/-- The score's left operand index at (b, l, k) with contraction coordinate d is (b, l, d). -/
private theorem lidx_v1 (b : Fin 32) (l k d : Fin 1024) : lidx_main_v1 (ix3 b l k) d = ix3 b l d :=
  funext fun a => Fin.ext (by match a with | ⟨0, _⟩ => rfl | ⟨1, _⟩ => rfl | ⟨2, _⟩ => rfl)

/-- The score's right operand index at (b, l, k) with contraction coordinate d is (b, k, d). -/
private theorem ridx_v1 (b : Fin 32) (l k d : Fin 1024) : ridx_main_v1 (ix3 b l k) d = ix3 b k d :=
  funext fun a => Fin.ext (by match a with | ⟨0, _⟩ => rfl | ⟨1, _⟩ => rfl | ⟨2, _⟩ => rfl)

/-- Entry (b, l, k) of the reshaped mask is entry (b · 1024 + l, k) of the flat mask. -/
private theorem idx_v3 (b : Fin 32) (l k : Fin 1024) : idx_main_v3 (ix3 b l k) = ix2 (Cert.Attn.mrow b l) k :=
  funext fun a => Fin.ext (by
    have hb := b.isLt; have hl := l.isLt; have hk := k.isLt
    match a with
    | ⟨0, _⟩ => show ((b.val * 1024 + l.val) * 1024 + k.val) / 1024 = b.val * 1024 + l.val; omega
    | ⟨1, _⟩ => show ((b.val * 1024 + l.val) * 1024 + k.val) % 1024 = k.val; omega)

/-- The projection stage at (b, l, e) is the projected query row's entry e. -/
theorem proj_apply (x0 : FVec Ideal S32x1024x1024 .f32) (x3 : FVec Ideal S1024x1024 .f32) (b : Fin 32) (l e : Fin 1024) :
    val_main_v0 (F := Ideal) x0 x3 (ix3 b l e) = Cert.Attn.qrow x0 x3 b l e := by
  rw [val_main_v0_apply]
  unfold Cert.Attn.qrow
  exact Finset.sum_congr rfl fun k _ => by rw [lidx_v0, ridx_v0]

/-! ### One lemma per quantity of the row -/

section Stages

variable (x0 x1 : FVec Ideal S32x1024x1024 .f32) (x2 : IVec S32768x1024 32) (x3 : FVec Ideal S1024x1024 .f32)
  (b : Fin 32) (l : Fin 1024)

/-- The score stage at (b, l, k) is the inner product of the projected query row with context row k. -/
private theorem score_apply (k : Fin 1024) :
    val_main_v1 (F := Ideal) x0 x1 x3 (ix3 b l k) = Cert.Attn.score (Cert.Attn.qrow x0 x3 b l) (Cert.Attn.crow x1 b) k := by
  rw [val_main_v1_apply]
  unfold Cert.Attn.score Cert.Attn.crow
  exact Finset.sum_congr rfl fun d _ => by rw [lidx_v1, ridx_v1, proj_apply]

/-- The converted and reshaped mask at (b, l, k) is the mask row's entry k, read as a signed integer. -/
private theorem mask_apply (k : Fin 1024) :
    val_main_v3 (F := Ideal) x2 (ix3 b l k) = Cert.Attn.mkrow x2 b l k := by
  rw [val_main_v3_apply, val_main_v2_apply, idx_v3]
  rfl

/-- The masked score stage. -/
private theorem mscore_apply (k : Fin 1024) :
    val_main_v4 (F := Ideal) x0 x1 x2 x3 (ix3 b l k)
      = Cert.Attn.mscore (Cert.Attn.qrow x0 x3 b l) (Cert.Attn.crow x1 b) (Cert.Attn.mkrow x2 b l) k := by
  rw [val_main_v4_apply, score_apply, mask_apply]
  rfl

/-- The word of the reduce's initial value is −∞. -/
private theorem negInf_eq_bot : Ideal.ofBits .f32 0xFF800000#32 = (⊥ : EReal) := by
  simp [Ideal.ofBits, Ideal.ieee]

/-- The reduced index (b, l) with coordinate k put back on the last axis is (b, l, k). -/
private theorem lift_last (h : S32x1024x1024.Reduces [2] S32x1024) (b : Fin 32) (l : Fin 1024)
    (k : Fin (S32x1024x1024.size 2)) : h.lift (ix2 b l) k = ix3 b l (⟨k.val, k.isLt⟩ : Fin 1024) := by
  funext c; apply Fin.ext
  match c with
  | ⟨0, _⟩ => rfl
  | ⟨1, _⟩ => rfl
  | ⟨2, _⟩ => rfl

/-- The max-reduce over the key axis, from −∞, at (b, l) is the row's largest masked score. -/
private theorem rowMax_apply :
    val_main_v5 (F := Ideal) x0 x1 x2 x3 (ix2 b l)
      = Cert.Attn.rowMax (Cert.Attn.qrow x0 x3 b l) (Cert.Attn.crow x1 b) (Cert.Attn.mkrow x2 b l) := by
  have h : S32x1024x1024.Reduces [2] S32x1024 := by decide
  unfold val_main_v5
  rw [Host.reduce_eq_fold_single FloatOps.maximumf _ _ Gen.reducesTo_S32x1024x1024_S32x1024_d2 h Gen.h_S_]
  have hinit : val_main_cst (F := Ideal) (Shape.Idx.first Gen.h_S_) = (⊥ : EReal) := by
    rw [val_main_cst_apply]; exact negInf_eq_bot
  have hf : (val_main_v4 (F := Ideal) x0 x1 x2 x3 ∘ h.lift (ix2 b l))
      = fun k : Fin 1024 => Cert.Attn.mscore (Cert.Attn.qrow x0 x3 b l) (Cert.Attn.crow x1 b) (Cert.Attn.mkrow x2 b l) k :=
    funext fun k => by
      show val_main_v4 (F := Ideal) x0 x1 x2 x3 (h.lift (ix2 b l) k) = _
      rw [lift_last, mscore_apply]
      rfl
  rw [hinit]
  unfold Cert.Attn.rowMax
  exact congrArg (fun f => Finset.fold max (⊥ : EReal) f (Finset.univ : Finset (Fin 1024))) hf

/-- The maximum with a broadcast −∞ changes nothing. -/
private theorem rowMax7_apply :
    val_main_v7 (F := Ideal) x0 x1 x2 x3 (ix2 b l)
      = Cert.Attn.rowMax (Cert.Attn.qrow x0 x3 b l) (Cert.Attn.crow x1 b) (Cert.Attn.mkrow x2 b l) := by
  rw [val_main_v7_apply, val_main_v6_apply, val_main_cst_0_apply, rowMax_apply]
  show max (Ideal.ofBits .f32 0xFF800000#32) _ = _
  rw [negInf_eq_bot]
  exact max_bot_left _

/-- The two broadcasts of a per-row quantity read it back at the row: the composed index of (b, l, k) is (b, l). -/
private theorem idx_row (b : Fin 32) (l k : Fin 1024) : idx_main_v8 (idx_main_v9 (ix3 b l k)) = ix2 b l :=
  funext fun a => Fin.ext (by match a with | ⟨0, _⟩ => rfl | ⟨1, _⟩ => rfl)

/-- The row maximum broadcast along the key axis. -/
private theorem rowMax9_apply (k : Fin 1024) :
    val_main_v9 (F := Ideal) x0 x1 x2 x3 (ix3 b l k)
      = Cert.Attn.rowMax (Cert.Attn.qrow x0 x3 b l) (Cert.Attn.crow x1 b) (Cert.Attn.mkrow x2 b l) := by
  rw [val_main_v9_apply, val_main_v8_apply, idx_row, rowMax7_apply]

/-- The exponential stage is the unnormalised softmax weight. -/
private theorem pexp_apply (k : Fin 1024) :
    val_main_v11 (F := Ideal) x0 x1 x2 x3 (ix3 b l k)
      = Cert.Attn.pexp (Cert.Attn.qrow x0 x3 b l) (Cert.Attn.crow x1 b) (Cert.Attn.mkrow x2 b l) k := by
  rw [val_main_v11_apply, val_main_v10_apply, mscore_apply, rowMax9_apply]
  rfl

/-- The sum's operand index at (b, l) with coordinate k is (b, l, k). -/
private theorem idx_v12 (b : Fin 32) (l k : Fin 1024) : idx_main_v12 (ix2 b l) k = ix3 b l k :=
  funext fun a => Fin.ext (by match a with | ⟨0, _⟩ => rfl | ⟨1, _⟩ => rfl | ⟨2, _⟩ => rfl)

/-- The sum of the exponentials, from the zero word, is the softmax denominator. -/
private theorem psum_apply :
    val_main_v12 (F := Ideal) x0 x1 x2 x3 (ix2 b l)
      = Cert.Attn.psum (Cert.Attn.qrow x0 x3 b l) (Cert.Attn.crow x1 b) (Cert.Attn.mkrow x2 b l) := by
  rw [val_main_v12_apply, val_main_cst_1_apply, Ideal.ofBits_def, Ideal.ofBits_zero_f32, zero_add]
  unfold Cert.Attn.psum
  exact Finset.sum_congr rfl fun k _ => by rw [idx_v12, pexp_apply]

/-- The composed index of the denominator's two broadcasts at (b, l, k) is (b, l). -/
private theorem idx_row14 (b : Fin 32) (l k : Fin 1024) : idx_main_v13 (idx_main_v14 (ix3 b l k)) = ix2 b l :=
  funext fun a => Fin.ext (by match a with | ⟨0, _⟩ => rfl | ⟨1, _⟩ => rfl)

/-- The softmax denominator broadcast along the key axis. -/
private theorem psum14_apply (k : Fin 1024) :
    val_main_v14 (F := Ideal) x0 x1 x2 x3 (ix3 b l k)
      = Cert.Attn.psum (Cert.Attn.qrow x0 x3 b l) (Cert.Attn.crow x1 b) (Cert.Attn.mkrow x2 b l) := by
  rw [val_main_v14_apply, val_main_v13_apply, idx_row14, psum_apply]

/-- The normalised weight times the mask is the masked softmax weight. -/
private theorem rw1_apply (k : Fin 1024) :
    val_main_v16 (F := Ideal) x0 x1 x2 x3 (ix3 b l k)
      = Cert.Attn.rw1 (Cert.Attn.qrow x0 x3 b l) (Cert.Attn.crow x1 b) (Cert.Attn.mkrow x2 b l) k := by
  rw [val_main_v16_apply, val_main_v15_apply, pexp_apply, psum14_apply, mask_apply]
  rfl

/-- The second sum's operand index at (b, l) with coordinate k is (b, l, k). -/
private theorem idx_v17 (b : Fin 32) (l k : Fin 1024) : idx_main_v17 (ix2 b l) k = ix3 b l k :=
  funext fun a => Fin.ext (by match a with | ⟨0, _⟩ => rfl | ⟨1, _⟩ => rfl | ⟨2, _⟩ => rfl)

/-- The sum of the masked softmax weights, from the zero word. -/
private theorem rsum_apply :
    val_main_v17 (F := Ideal) x0 x1 x2 x3 (ix2 b l)
      = ∑ k : Fin 1024, Cert.Attn.rw1 (Cert.Attn.qrow x0 x3 b l) (Cert.Attn.crow x1 b) (Cert.Attn.mkrow x2 b l) k := by
  rw [val_main_v17_apply, val_main_cst_2_apply, Ideal.ofBits_def, Ideal.ofBits_zero_f32, zero_add]
  exact Finset.sum_congr rfl fun k _ => by rw [idx_v17, rw1_apply]

/-- The composed index of the renormalising denominator's two broadcasts at (b, l, k) is (b, l). -/
private theorem idx_row21 (b : Fin 32) (l k : Fin 1024) : idx_main_v18 (idx_main_v21 (ix3 b l k)) = ix2 b l :=
  funext fun a => Fin.ext (by match a with | ⟨0, _⟩ => rfl | ⟨1, _⟩ => rfl)

/-- The weights' sum plus the broadcast small constant, broadcast along the key axis, is the renormalising denominator. -/
private theorem rden_apply (k : Fin 1024) :
    val_main_v21 (F := Ideal) x0 x1 x2 x3 (ix3 b l k)
      = Cert.Attn.rden (Cert.Attn.qrow x0 x3 b l) (Cert.Attn.crow x1 b) (Cert.Attn.mkrow x2 b l) Cert.Attn.epsW := by
  rw [val_main_v21_apply, val_main_v20_apply, val_main_v18_apply, val_main_v19_apply, val_main_cst_3_apply, idx_row21,
    rsum_apply, Ideal.ofBits_def]
  rfl

/-- The attended context's left operand index at (b, l, d) with contraction coordinate k is (b, l, k). -/
private theorem lidx_v23 (b : Fin 32) (l d k : Fin 1024) : lidx_main_v23 (ix3 b l d) k = ix3 b l k :=
  funext fun a => Fin.ext (by match a with | ⟨0, _⟩ => rfl | ⟨1, _⟩ => rfl | ⟨2, _⟩ => rfl)

/-- The attended context's right operand index at (b, l, d) with contraction coordinate k is (b, k, d). -/
private theorem ridx_v23 (b : Fin 32) (l d k : Fin 1024) : ridx_main_v23 (ix3 b l d) k = ix3 b k d :=
  funext fun a => Fin.ext (by match a with | ⟨0, _⟩ => rfl | ⟨1, _⟩ => rfl | ⟨2, _⟩ => rfl)

end Stages

/-- The attended-context stage at (b, l, d) is the second arrangement's attended context of that row. -/
theorem mix_apply (x0 x1 : FVec Ideal S32x1024x1024 .f32) (x2 : IVec S32768x1024 32) (x3 : FVec Ideal S1024x1024 .f32)
    (b : Fin 32) (l d : Fin 1024) :
    val_main_v23 (F := Ideal) x0 x1 x2 x3 (ix3 b l d)
      = Cert.Attn.rmix (Cert.Attn.qrow x0 x3 b l) (Cert.Attn.crow x1 b) (Cert.Attn.mkrow x2 b l) Cert.Attn.epsW d := by
  rw [val_main_v23_apply]
  unfold Cert.Attn.rmix
  refine Finset.sum_congr rfl fun k _ => ?_
  rw [lidx_v23, ridx_v23, val_main_v22_apply, rw1_apply, rden_apply]
  rfl

end Cert.ReferenceIdeal.RefValue

end
-- ==== Proof.RefValue.lean ====
/-
  The reference's result is the second arrangement's result array.
-/
import proofs.«104273_j9234179687166_1_alg».proof.Proof.RefMix

noncomputable section

namespace Cert.ReferenceIdeal.RefValue

open Cert.ReferenceIdeal Cert.ReferenceIdeal.ReadP Idealize.ShloMosaic Idealize.ShloMosaic.ValueIdx

/-- The joined stage at (b, l, c): the attended row for c below 1024, the projected query row from 1024 on. -/
theorem cat_apply (x0 x1 : FVec Ideal S32x1024x1024 .f32) (x2 : IVec S32768x1024 32) (x3 : FVec Ideal S1024x1024 .f32)
    (b : Fin 32) (l : Fin 1024) (c : Fin 2048) :
    val_main_v24 (F := Ideal) x0 x1 x2 x3 (ix3 b l c)
      = Cert.Attn.rcat (Cert.Attn.qrow x0 x3 b l) (Cert.Attn.crow x1 b) (Cert.Attn.mkrow x2 b l) Cert.Attn.epsW c := by
  unfold val_main_v24 Cert.Attn.rcat
  split
  · next h =>
    -- the coordinate on the joined axis lies in the first piece: same coordinates there
    rw [concatenate_pair_apply_left (s₁ := S32x1024x1024) (s₂ := S32x1024x1024) (2 : Fin 3) _ _ _
      (ix3 b l c) rfl (ix3 b l (⟨c.val, h⟩ : Fin 1024))
      (fun a => by match a with | ⟨0, _⟩ => rfl | ⟨1, _⟩ => rfl | ⟨2, _⟩ => rfl)]
    exact mix_apply x0 x1 x2 x3 b l ⟨c.val, h⟩
  · next h =>
    -- past the first piece's 1024 entries: the second piece, 1024 further down
    rw [concatenate_pair_apply_right (s₁ := S32x1024x1024) (s₂ := S32x1024x1024) (2 : Fin 3) _ _ _
      (ix3 b l c) rfl rfl (ix3 b l (⟨c.val - 1024, by omega⟩ : Fin 1024))
      (fun a ha => by
        match a with
        | ⟨0, _⟩ => rfl
        | ⟨1, _⟩ => rfl
        | ⟨2, _⟩ => exact absurd rfl ha)
      (by show c.val - 1024 + 1024 = c.val; omega)]
    exact proj_apply x0 x3 b l ⟨c.val - 1024, by omega⟩

/-- The last stage — tanh of the concatenated row against the output weights — is `GR` of the arguments. -/
theorem ref_value (x0 x1 : FVec Ideal S32x1024x1024 .f32) (x2 : IVec S32768x1024 32) (x3 : FVec Ideal S1024x1024 .f32)
    (x4 : FVec Ideal S1024x2048 .f32) :
    val_main_v26 (F := Ideal) x0 x1 x2 x3 x4 = Cert.Attn.GR x0 x1 x2 x3 x4 := by
  funext i
  obtain ⟨b, l, e, rfl⟩ : ∃ (b : Fin 32) (l e : Fin 1024), i = ix3 b l e := ⟨i 0, i 1, i 2, eq_ix3 i⟩
  rw [val_main_v26_apply, Ideal.hostUnary_tanh_def, val_main_v25_apply]
  unfold Cert.Attn.GR Cert.Attn.rout
  refine congrArg Ideal.tanh (Finset.sum_congr rfl fun c _ => ?_)
  -- the contraction reads the joined row of (b, l) at c and row e of the output weights at c
  have el : lidx_main_v25 (ix3 b l e) c = ix3 b l c :=
    funext fun a => by match a with | ⟨0, _⟩ => rfl | ⟨1, _⟩ => rfl | ⟨2, _⟩ => rfl
  have er : ridx_main_v25 (ix3 b l e) c = ix2 e c :=
    funext fun a => by match a with | ⟨0, _⟩ => rfl | ⟨1, _⟩ => rfl
  rw [el, er, cat_apply]

end Cert.ReferenceIdeal.RefValue

end
-- ==== Proof.AttnLawCore.lean ====
/-
  The two arrangements of one attention row give the same attended context.
-/
import proofs.«104273_j9234179687166_1_alg».proof.Proof.AttnSpec

noncomputable section

namespace Cert.Attn

open Idealize.ShloMosaic

/-- A finite sum of real numbers, each read as an extended real, is the real sum read as an extended real. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The running maximum from `-∞` of finitely many reals is `-∞` when there are none, and otherwise a real. -/
theorem fold_max_coe_aux {ι : Type*} [DecidableEq ι] (s : Finset ι) (f : ι → ℝ) :
    (s = ∅ ∧ s.fold max (⊥ : EReal) (fun i => ((f i : ℝ) : EReal)) = ⊥) ∨
      ∃ μ : ℝ, s.fold max (⊥ : EReal) (fun i => ((f i : ℝ) : EReal)) = (μ : EReal) := by
  induction s using Finset.induction_on with
  | empty => exact Or.inl ⟨rfl, Finset.fold_empty⟩
  | insert a s ha ih =>
    right
    rw [Finset.fold_insert ha]
    rcases ih with ⟨_, h⟩ | ⟨μ, h⟩
    · exact ⟨f a, by rw [h, max_bot_right]⟩
    · exact ⟨max (f a) μ, by rw [h, EReal.coe_strictMono.monotone.map_max]⟩

/-- Over a nonempty family the running maximum from `-∞` is a real. -/
theorem fold_max_coe {ι : Type*} [DecidableEq ι] (s : Finset ι) (hs : s.Nonempty) (f : ι → ℝ) :
    ∃ μ : ℝ, s.fold max (⊥ : EReal) (fun i => ((f i : ℝ) : EReal)) = (μ : EReal) := by
  rcases fold_max_coe_aux s f with ⟨h, _⟩ | h
  · exact absurd h hs.ne_empty
  · exact h

/-- The law over the reals. With positive weights `p` of sum `L`, a mask `m ≥ 0` and `e > 0`, put
    `D = ∑ p m + e L` and `R = ∑ (p / L) m + e`. Then `R = D / L`, so each renormalised weight
    `(p k / L) m k / R` is `p k m k / D`, and the weighted sums agree. -/
theorem real_law {ι : Type*} [Fintype ι] (p m c : ι → ℝ) (e L : ℝ) (hL : 0 < L) (he : 0 < e)
    (hpm : ∀ k, 0 ≤ p k * m k) :
    (∑ k, p k * m k * c k) * (1 / ((∑ k, p k * m k) + e * L)) =
      ∑ k, p k * (1 / L) * m k * (1 / ((∑ k, p k * (1 / L) * m k) + e)) * c k := by
  have hA : 0 ≤ ∑ k, p k * m k := Finset.sum_nonneg fun k _ => hpm k
  have hD : 0 < (∑ k, p k * m k) + e * L := add_pos_of_nonneg_of_pos hA (mul_pos he hL)
  have hR : (∑ k, p k * (1 / L) * m k) + e = ((∑ k, p k * m k) + e * L) / L := by
    have : (∑ k, p k * (1 / L) * m k) = (∑ k, p k * m k) / L := by
      rw [Finset.sum_div]
      refine Finset.sum_congr rfl fun k _ => ?_
      field_simp
    rw [this]
    field_simp
  rw [hR, Finset.sum_mul]
  refine Finset.sum_congr rfl fun k _ => ?_
  field_simp

/-- With a real query row, real context rows, a mask of zeros and ones and a positive real `ε`, dividing the masked
    weighted sum once by `∑ a + ε L` is the weighted sum of the weights renormalised one by one. -/
theorem kmix_eq_rmix (q : Fin 1024 → EReal) (ctx : Fin 1024 → Fin 1024 → EReal) (mk : Fin 1024 → EReal) (ε : EReal)
    (hq : ∀ d, ∃ r : ℝ, q d = (r : EReal)) (hctx : ∀ k d, ∃ r : ℝ, ctx k d = (r : EReal))
    (hmk : ∀ k, mk k = 0 ∨ mk k = 1) (hε : ∃ r : ℝ, 0 < r ∧ ε = (r : EReal)) (d : Fin 1024) :
    kmix q ctx mk ε d = rmix q ctx mk ε d := by
  -- real witnesses for every input
  choose qr hq using hq
  choose cr hctx using hctx
  obtain ⟨e, he, rfl⟩ := hε
  have hmk' : ∀ k, ∃ r : ℝ, 0 ≤ r ∧ mk k = (r : EReal) := by
    intro k
    rcases hmk k with h | h
    · exact ⟨0, le_rfl, by rw [h, EReal.coe_zero]⟩
    · exact ⟨1, zero_le_one, by rw [h, EReal.coe_one]⟩
  choose mr hmr0 hmr using hmk'
  -- the score and the masked score are real
  have hscore : ∀ k, score q ctx k = ((∑ j, qr j * cr k j : ℝ) : EReal) := by
    intro k
    rw [score, ← coe_finset_sum]
    refine Finset.sum_congr rfl fun j _ => ?_
    rw [hq, hctx, EReal.coe_mul]
  have hms : mscore q ctx mk = fun k => (((∑ j, qr j * cr k j) * mr k : ℝ) : EReal) := by
    funext k
    rw [mscore, hscore, hmr, EReal.coe_mul]
  -- the largest masked score is real
  obtain ⟨μ, hμ⟩ : ∃ μ : ℝ, rowMax q ctx mk = (μ : EReal) := by
    rw [rowMax, hms]
    exact fold_max_coe _ Finset.univ_nonempty _
  -- the unnormalised weights are positive reals, and so is their sum
  set p : Fin 1024 → ℝ := fun k => Real.exp ((∑ j, qr j * cr k j) * mr k - μ) with hp
  have hpexp : ∀ k, pexp q ctx mk k = (p k : EReal) := by
    intro k
    rw [pexp, hms, hμ, ← EReal.coe_sub, Ideal.exp_coe]
  have hppos : ∀ k, 0 < p k := fun k => Real.exp_pos _
  set L : ℝ := ∑ k, p k with hLdef
  have hL : 0 < L := Finset.sum_pos (fun k _ => hppos k) Finset.univ_nonempty
  have hpsum : psum q ctx mk = (L : EReal) := by
    rw [psum, hLdef, ← coe_finset_sum]
    exact Finset.sum_congr rfl fun k _ => hpexp k
  have hpm : ∀ k, 0 ≤ p k * mr k := fun k => mul_nonneg (hppos k).le (hmr0 k)
  -- first arrangement
  have hkw : ∀ k, kw q ctx mk k = ((p k * mr k : ℝ) : EReal) := by
    intro k
    rw [kw, hpexp, hmr, EReal.coe_mul]
  have hA : 0 ≤ ∑ k, p k * mr k := Finset.sum_nonneg fun k _ => hpm k
  have hD : 0 < (∑ k, p k * mr k) + e * L := add_pos_of_nonneg_of_pos hA (mul_pos he hL)
  have hkden : kden q ctx mk (e : EReal) = (((∑ k, p k * mr k) + e * L : ℝ) : EReal) := by
    rw [kden, hpsum, EReal.coe_add, EReal.coe_mul, ← coe_finset_sum]
    congr 1
    exact Finset.sum_congr rfl fun k _ => hkw k
  have hkmix : kmix q ctx mk (e : EReal) d =
      (((∑ k, p k * mr k * cr k d) * (1 / ((∑ k, p k * mr k) + e * L)) : ℝ) : EReal) := by
    rw [kmix, hkden, Ideal.div_coe hD.ne', EReal.coe_mul, ← coe_finset_sum]
    congr 1
    refine Finset.sum_congr rfl fun k _ => ?_
    rw [hkw, hctx]
    simp only [EReal.coe_mul]
  -- second arrangement
  have hrw1 : ∀ k, rw1 q ctx mk k = ((p k * (1 / L) * mr k : ℝ) : EReal) := by
    intro k
    rw [rw1, hpexp, hpsum, Ideal.div_coe hL.ne', hmr, EReal.coe_mul, EReal.coe_mul]
  have hW : 0 ≤ ∑ k, p k * (1 / L) * mr k :=
    Finset.sum_nonneg fun k _ =>
      mul_nonneg (mul_nonneg (hppos k).le (one_div_pos.mpr hL).le) (hmr0 k)
  have hR : 0 < (∑ k, p k * (1 / L) * mr k) + e := add_pos_of_nonneg_of_pos hW he
  have hrden : rden q ctx mk (e : EReal) = (((∑ k, p k * (1 / L) * mr k) + e : ℝ) : EReal) := by
    rw [rden, EReal.coe_add, ← coe_finset_sum]
    congr 1
    exact Finset.sum_congr rfl fun k _ => hrw1 k
  have hrmix : rmix q ctx mk (e : EReal) d =
      ((∑ k, p k * (1 / L) * mr k * (1 / ((∑ k, p k * (1 / L) * mr k) + e)) * cr k d : ℝ) : EReal) := by
    rw [rmix, ← coe_finset_sum]
    refine Finset.sum_congr rfl fun k _ => ?_
    rw [hrw1, hrden, Ideal.div_coe hR.ne', hctx]
    simp only [EReal.coe_mul]
  -- both sides are one real expression
  rw [hkmix, hrmix, real_law p mr (fun k => cr k d) e L hL he hpm]

end Cert.Attn

end
-- ==== Proof.AttnLaw.lean ====
/-
  From one row to the whole arrays: the two arrangements give the same result array.
-/
import proofs.«104273_j9234179687166_1_alg».proof.Proof.AttnLawCore

noncomputable section

namespace Cert.Attn

open Idealize.ShloMosaic Idealize.ShloMosaic.ValueIdx

/-! ### Auxiliary facts -/

/-- A sum over 2048 entries is the sum over the first 1024 plus the sum over the last 1024. This holds in any
    additive commutative monoid, so no finiteness of the summands is needed. -/
theorem sum_halves (f : Fin 2048 → EReal) :
    ∑ c : Fin 2048, f c = (∑ c : Fin 1024, f ⟨c.val, by omega⟩) + ∑ c : Fin 1024, f ⟨1024 + c.val, by omega⟩ :=
  Fin.sum_univ_add (a := 1024) (b := 1024) (f : Fin (1024 + 1024) → EReal)

/-- In its first 1024 entries the concatenated row is the attended row. -/
theorem rcat_lo (q : Fin 1024 → EReal) (ctx : Fin 1024 → Fin 1024 → EReal) (mk : Fin 1024 → EReal) (ε : EReal)
    (c : Fin 1024) : rcat q ctx mk ε ⟨c.val, by omega⟩ = rmix q ctx mk ε c := by
  unfold rcat
  rw [dif_pos (show (⟨c.val, by omega⟩ : Fin 2048).val < 1024 from c.isLt)]

/-- In its last 1024 entries the concatenated row is the query row. -/
theorem rcat_hi (q : Fin 1024 → EReal) (ctx : Fin 1024 → Fin 1024 → EReal) (mk : Fin 1024 → EReal) (ε : EReal)
    (c : Fin 1024) : rcat q ctx mk ε ⟨1024 + c.val, by omega⟩ = q c := by
  unfold rcat
  rw [dif_neg (show ¬ (⟨1024 + c.val, by omega⟩ : Fin 2048).val < 1024 by simp)]
  congr 1
  apply Fin.ext
  simp

/-- A finite sum of reals, formed in the extended reals, is a real. -/
theorem sum_real {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨x, hx⟩ := h a (Finset.mem_insert_self a s)
    obtain ⟨y, hy⟩ := ih (fun i hi => h i (Finset.mem_insert_of_mem hi))
    refine ⟨x + y, ?_⟩
    rw [Finset.sum_insert ha, hx, hy, EReal.coe_add]

/-- A mask word that is `0` or `1`, read as a signed integer and then as a number, is `0` or `1`. -/
theorem mkrow_zero_or_one (M : (⟨2, ![32768, 1024]⟩ : Shape).Idx → BitVec 32) (hM : ∀ i, M i = 0#32 ∨ M i = 1#32)
    (b : Fin 32) (l k : Fin 1024) : mkrow M b l k = 0 ∨ mkrow M b l k = 1 := by
  unfold mkrow
  rcases hM (ix2 (mrow b l) k) with h | h
  · left
    rw [h]
    simp
  · right
    have h1 : (1#32 : BitVec 32).toInt = 1 := by decide
    rw [h, h1]
    simp

/-! ### The output entries, the projected query, and the whole arrays -/

/-- The shared small constant is a positive real. -/
theorem epsW_pos : ∃ r : ℝ, 0 < r ∧ epsW = (r : EReal) := by
  -- the word has sign 0, exponent field 83 and fraction field 6368787: a normal number, (2^23 + 6368787) · 2^(83 - 127 - 23)
  refine ⟨((2 ^ 23 + 6368787 : ℕ) : ℝ) * (2 : ℝ) ^ ((83 : ℤ) - 127 - 23), by positivity, ?_⟩
  simp [epsW, Ideal.ofBits, Ideal.ieee, -EReal.coe_mul]

/-- The output entries agree: the attended rows agree, and a sum over 2048 entries is the sum over its two halves. -/
theorem kout_eq_rout (q : Fin 1024 → EReal) (ctx : Fin 1024 → Fin 1024 → EReal) (mk : Fin 1024 → EReal) (ε : EReal)
    (hq : ∀ d, ∃ r : ℝ, q d = (r : EReal)) (hctx : ∀ k d, ∃ r : ℝ, ctx k d = (r : EReal))
    (hmk : ∀ k, mk k = 0 ∨ mk k = 1) (hε : ∃ r : ℝ, 0 < r ∧ ε = (r : EReal))
    (wa wb : Fin 1024 → EReal) (wo : Fin 2048 → EReal)
    (hwa : ∀ c : Fin 1024, wa c = wo ⟨c.val, by omega⟩) (hwb : ∀ c : Fin 1024, wb c = wo ⟨1024 + c.val, by omega⟩) :
    kout q ctx mk ε wa wb = rout q ctx mk ε wo := by
  unfold kout rout
  refine congrArg Ideal.tanh ?_
  rw [sum_halves]
  refine congrArg₂ (· + ·) ?_ ?_
  · refine Finset.sum_congr rfl fun c _ => ?_
    rw [rcat_lo, kmix_eq_rmix q ctx mk ε hq hctx hmk hε c, hwa c]
  · refine Finset.sum_congr rfl fun c _ => ?_
    rw [rcat_hi, hwb c]

/-- A projected query row of real inputs is real. -/
theorem qrow_real (X : (⟨3, ![32, 1024, 1024]⟩ : Shape).Idx → EReal) (Wi : (⟨2, ![1024, 1024]⟩ : Shape).Idx → EReal)
    (hX : ∀ i, ∃ r : ℝ, X i = (r : EReal)) (hWi : ∀ i, ∃ r : ℝ, Wi i = (r : EReal)) (b : Fin 32) (l e : Fin 1024) :
    ∃ r : ℝ, qrow X Wi b l e = (r : EReal) := by
  unfold qrow
  refine sum_real _ _ fun d _ => ?_
  obtain ⟨x, hx⟩ := hX (ix3 b l d)
  obtain ⟨w, hw⟩ := hWi (ix2 e d)
  exact ⟨x * w, by rw [hx, hw, EReal.coe_mul]⟩

/-- The two arrangements give one result array, for finite inputs and a mask of zeros and ones. -/
theorem GK_eq_GR (X C : (⟨3, ![32, 1024, 1024]⟩ : Shape).Idx → EReal) (M : (⟨2, ![32768, 1024]⟩ : Shape).Idx → BitVec 32)
    (Wi : (⟨2, ![1024, 1024]⟩ : Shape).Idx → EReal) (Wo : (⟨2, ![1024, 2048]⟩ : Shape).Idx → EReal)
    (hX : ∀ i, ∃ r : ℝ, X i = (r : EReal)) (hC : ∀ i, ∃ r : ℝ, C i = (r : EReal))
    (hM : ∀ i, M i = 0#32 ∨ M i = 1#32) (hWi : ∀ i, ∃ r : ℝ, Wi i = (r : EReal)) :
    GK X C M Wi Wo = GR X C M Wi Wo := by
  funext i
  unfold GK GR
  exact kout_eq_rout _ _ _ _ (fun d => qrow_real X Wi hX hWi _ _ d) (fun k d => hC (ix3 _ k d))
    (fun k => mkrow_zero_or_one M hM _ _ k) epsW_pos _ _ _ (fun _ => rfl) (fun _ => rfl)

end Cert.Attn

end
-- ==== Proof.PreDecode.lean ====
/-
  What the precondition says of the inputs: every float entry is a real number and every mask word is 0 or 1.
-/
import proofs.«104273_j9234179687166_1_alg».proof.Pre_finite_inputs
import proofs.«104273_j9234179687166_1_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreDecode

open Idealize.ShloMosaic Cert.Pre_finite_inputs

/-- The rank-0 shape has exactly one index: an index is a function out of the empty type. -/
instance subsingleton_scalar_idx : Subsingleton S_.Idx := ⟨fun _ _ => funext fun d => d.elim0⟩

/-- An extended real whose absolute value `max x (-x)` lies strictly below `+∞` is a real number: at `⊥` and at `⊤`
    that maximum is `⊤` itself. -/
theorem real_of_abs_lt_top (x : EReal) (h : max x (-x) < ⊤) : ∃ r : ℝ, x = (r : EReal) := by
  induction x using EReal.rec with
  | bot => simp at h
  | coe r => exact ⟨r, rfl⟩
  | top => simp at h

/-- The pattern with all exponent bits set and a zero significand denotes `+∞`. -/
theorem inf_bits : Ideal.ofBits .f32 0x7F800000#32 = ⊤ := by simp [Ideal.ofBits, Ideal.ieee]

/-- One element of the printed test `|x| < +∞`: if the comparison's bit is set, `x` is a real. -/
theorem real_of_elem (x : Ideal .f32)
    (h : FloatOps.cmpf (F := Ideal) .olt (FloatOps.hostAbsf x) (FloatOps.ofBits (F := Ideal) .f32 0x7F800000#32) = 1#1) :
    ∃ r : ℝ, x = (r : EReal) := by
  apply real_of_abs_lt_top
  change Ideal.cmp .olt (max x (-x)) (Ideal.ofBits .f32 0x7F800000#32) = 1#1 at h
  rw [inf_bits] at h
  simpa only [Ideal.cmp, StableHlo.Predicate.ofBool_eq_one_iff, decide_eq_true_eq] using h

/-- A whole float array: if the conjunction over all elements of `|x| < +∞` is true, every entry is a real. -/
theorem all_real {s : Shape} {axes : List (Fin s.rank)} (x : FVec Ideal s .f32)
    (hb : S_.BroadcastsInDim s (![] : Fin 0 → Fin s.rank)) (hr : s.ReducesTo axes S_) (h0 : 0 < S_.numel) (init : IVec S_ 1)
    (h : Host.reduce IntOp.andi (cmpf .olt (Host.absf x) (broadcastInDim s ![] hb (constant S_ .f32 0x7F800000#32))) init hr h0
      ValueIdx.ix0 = 1#1) :
    ∀ i, ∃ r : ℝ, x i = (r : EReal) := by
  intro i
  have e := Host.reduce_andi_all _ _ hr h0 _ h i
  apply real_of_elem
  simpa only [cmpf, Host.absf, StableHlo.Predicate.bcast_scalar hb h0, constant] using e

/-- The mask: if the conjunction over all elements of `m = 0 or m = 1` is true, every word is 0 or 1. -/
theorem all_bit {s : Shape} {axes : List (Fin s.rank)} (M : IVec s 32)
    (hb : S_.BroadcastsInDim s (![] : Fin 0 → Fin s.rank)) (hr : s.ReducesTo axes S_) (h0 : 0 < S_.numel) (init : IVec S_ 1)
    (h : Host.reduce IntOp.andi (ori (cmpi .eq M (broadcastInDim s ![] hb (constantI S_ 32 0#32)))
      (cmpi .eq M (broadcastInDim s ![] hb (constantI S_ 32 1#32)))) init hr h0 ValueIdx.ix0 = 1#1) :
    ∀ i, M i = 0#32 ∨ M i = 1#32 := by
  intro i
  have e := Host.reduce_andi_all _ _ hr h0 _ h i
  simpa only [ori, cmpi, IntOp.ori_eq_one, StableHlo.Predicate.cmpi_eq_iff, StableHlo.Predicate.bcast_scalar hb h0, constantI] using e

/-- If the printed precondition evaluates to true at the ideal instance, the four float arrays hold reals and the mask
    holds only the words 0 and 1. -/
theorem decode [Cert.Pre_finite_inputs.Facts] (X C : FVec Ideal S32x1024x1024 .f32) (M : IVec S32768x1024 32)
    (Wi : FVec Ideal S1024x1024 .f32) (Wo : FVec Ideal S1024x2048 .f32)
    (h : Cert.Pre_finite_inputs.fn (F := Ideal) X C M Wi Wo = fun _ => 1#1) :
    (∀ i, ∃ r : ℝ, X i = (r : EReal)) ∧ (∀ i, ∃ r : ℝ, C i = (r : EReal)) ∧ (∀ i, M i = 0#32 ∨ M i = 1#32)
      ∧ (∀ i, ∃ r : ℝ, Wi i = (r : EReal)) ∧ (∀ i, ∃ r : ℝ, Wo i = (r : EReal)) := by
  have h0 := congrFun h ValueIdx.ix0
  dsimp only [Cert.Pre_finite_inputs.fn, Cert.Pre_finite_inputs.fn_part1] at h0
  simp only [andi, IntOp.andi_eq_one] at h0
  obtain ⟨⟨⟨⟨hX, hC⟩, hWi⟩, hWo⟩, hM⟩ := h0
  exact ⟨all_real X _ _ _ _ hX, all_real C _ _ _ _ hC, all_bit M _ _ _ _ hM, all_real Wi _ _ _ _ hWi, all_real Wo _ _ _ _ hWo⟩

end Cert.PreDecode

end
-- ==== Proof.lean ====
/-
  Masked-softmax attention with an output projection: the kernel program against its plain reference, over the
  extended reals.

  Both programs project the query (`q = query · W_inᵀ`), score it against the context, multiply the scores by the mask,
  take the row softmax weights `p = exp (s − max s)`, `L = ∑ p`, mask them again and renormalise with the same small
  `ε`, mix the context, and apply `tanh` to the mixed row and the projected query against the output weights.
  The kernel program does it in two launches (the projection; then everything else, one block of 256 query rows
  at a time with the whole context of the batch) and divides the masked weighted sum ONCE by `∑ p·m + ε·L`; the
  reference renormalises every weight, `((p/L)·m) / (∑ (p/L)·m + ε)`, before it sums, and contracts the concatenated
  row `[mix, q]` against the whole output weights where the kernel adds the two halves' products.

  For finite inputs and a mask of zeros and ones every quantity is a real number, `L` is positive and the
  denominator `∑ p·m + ε·L` is positive, so the two arrangements agree (multiply the reference's numerator and
  denominator by `L`). Outside that domain the reference itself divides by zero: with a negative mask entry the
  denominator can vanish, and there the two arrangements part (a quotient of a sum by zero against a sum of
  quotients by zero), which is why the precondition asks the mask to hold zeros and ones only.

  The pieces: the kernel program's run with its result array named and that array as the first arrangement's
  function of the arguments (`KernelValue.kernel_value`); the reference's run and its result as the second
  arrangement's function (`RefValue.ref_value`); what the precondition gives (`PreDecode.decode`); and the law
  joining the two arrangements (`Attn.GK_eq_GR`).
-/
import proofs.«104273_j9234179687166_1_alg».proof.Defs
import proofs.«104273_j9234179687166_1_alg».proof.Proof.Gen.Kernel
import proofs.«104273_j9234179687166_1_alg».proof.Proof.Gen.Kernel.Skeleton
import proofs.«104273_j9234179687166_1_alg».proof.Proof.Gen.Kernel.Launch
import proofs.«104273_j9234179687166_1_alg».proof.Proof.Gen.Kernel.Points
import proofs.«104273_j9234179687166_1_alg».proof.Proof.Gen.Kernel.Frame
import proofs.«104273_j9234179687166_1_alg».proof.Proof.Gen.KernelIdeal
import proofs.«104273_j9234179687166_1_alg».proof.Proof.Gen.KernelIdeal.Skeleton
import proofs.«104273_j9234179687166_1_alg».proof.Proof.Gen.KernelIdeal.Launch
import proofs.«104273_j9234179687166_1_alg».proof.Proof.Gen.KernelIdeal.Points
import proofs.«104273_j9234179687166_1_alg».proof.Proof.Gen.KernelIdeal.Frame
import proofs.«104273_j9234179687166_1_alg».proof.Proof.Gen.ReferenceIdeal
import proofs.«104273_j9234179687166_1_alg».proof.Proof.Gen.Pre_finite_inputs
import proofs.«104273_j9234179687166_1_alg».proof.Proof.KernelRun
import proofs.«104273_j9234179687166_1_alg».proof.Proof.KernelValue
import proofs.«104273_j9234179687166_1_alg».proof.Proof.RefRun
import proofs.«104273_j9234179687166_1_alg».proof.Proof.RefRead
import proofs.«104273_j9234179687166_1_alg».proof.Proof.RefValue
import proofs.«104273_j9234179687166_1_alg».proof.Proof.AttnLaw
import proofs.«104273_j9234179687166_1_alg».proof.Proof.PreDecode
import Idealize.ShloMosaic.Adequacy
import Idealize.ShloMosaic.Init

noncomputable section

namespace Cert.Proof

open Idealize.ShloMosaic Idealize.SL.Sem

/-- The kernel program as printed terminates without a fault and leaves its arguments as launched. -/
theorem frame_kernel : Cert.frame_Kernel := fun m ρ _ => Cert.Kernel.Gen.frame m ρ

/-- So does its idealized reading. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealized kernel is the printed kernel's own text read over the extended reals: nothing was rewritten. -/
theorem preserves : Cert.preserves_Kernel_KernelIdeal := trivial

/-- From memories that agree on the arguments both programs end with the same result array: the kernel's is the
    first arrangement of the arguments, the reference's the second, and under the precondition the two are equal. -/
theorem algebraic : Cert.algebraic_KernelIdeal_ReferenceIdeal := by
  intro m ρ m' ρ' hpre hagree
  refine ⟨fun c => Cert.Attn.GK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.KernelValue.kernel_value m ρ c), (h c).2⟩)
      (Cert.KernelIdeal.GenRun.run_named (F := Ideal) m ρ)
  · refine (θ_run Cert.ReferenceIdeal.defs _ _).mono (fun _ h c => ⟨(h c).1.trans ?_, (h c).2⟩)
      (Cert.ReferenceIdeal.ValueP.run (F := Ideal) m' ρ')
    obtain ⟨hX, hC, hM, hWi, _⟩ := Cert.PreDecode.decode _ _ _ _ _ (hpre c)
    rw [Cert.ReferenceIdeal.ReadP.val_main_v26_eq, Cert.ReferenceIdeal.RefValue.ref_value,
      (hagree c).1, (hagree c).2.1, (hagree c).2.2.1, (hagree c).2.2.2.1, (hagree c).2.2.2.2]
    exact (Cert.Attn.GK_eq_GR _ _ _ _ _ hX hC hM hWi).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
